-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S2x640000 : Shape := ⟨2, ![2, 640000]⟩
abbrev S640000x128 : Shape := ⟨2, ![640000, 128]⟩
abbrev S384x128 : Shape := ⟨2, ![384, 128]⟩
abbrev S128 : Shape := ⟨1, ![128]⟩
abbrev S256x128 : Shape := ⟨2, ![256, 128]⟩
abbrev S_ : Shape := ⟨0, ![]⟩
abbrev S1x640000 : Shape := ⟨2, ![1, 640000]⟩
abbrev S640000 : Shape := ⟨1, ![640000]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S640000x128 : S_.BroadcastsInDim S640000x128 (![] : Fin 0 → Fin S640000x128.rank)
  reducesTo_S640000x128_S_d0_1 : S640000x128.ReducesTo [0, 1] S_
  bcast_S_S384x128 : S_.BroadcastsInDim S384x128 (![] : Fin 0 → Fin S384x128.rank)
  reducesTo_S384x128_S_d0_1 : S384x128.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_
  slices_S2x640000_S1x640000_0_0 : S2x640000.Slices ![0, 0] S1x640000
  shapeCasts_S1x640000_S640000 : S1x640000.ShapeCasts S640000
  bcast_S_S640000 : S_.BroadcastsInDim S640000 (![] : Fin 0 → Fin S640000.rank)
  reducesTo_S640000_S_d0 : S640000.ReducesTo [0] S_

variable [Facts]

def fn_part2 {F : FTy → Type} [FloatOps F] (main_v28 : IVec S_ 1) (main_v32 : IVec S640000 1) (main_v34 : IVec S640000 32) : IVec S_ 1 :=
  let main_c_11 : IVec S_ 32 := constantI S_ 32 10000#32
  let main_v35 : IVec S640000 32 := broadcastInDim S640000 ![] bcast_S_S640000 main_c_11
  let main_v36 : IVec S640000 1 := cmpi .slt main_v34 main_v35
  let main_v37 : IVec S640000 1 := andi main_v32 main_v36
  let main_c_12 : IVec S_ 1 := constantI S_ 1 1#1
  let main_v38 : IVec S_ 1 := (fun x v => Host.reduce IntOp.andi x v reducesTo_S640000_S_d0 h_S_) main_v37 main_c_12
  let main_v39 : IVec S_ 1 := andi main_v28 main_v38
  main_v39

def fn_part1 {F : FTy → Type} [FloatOps F] (main_arg1 : IVec S2x640000 32) (main_arg5 : FVec F S256x128 .f32) (main_arg6 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S256x128 .f32 := Host.absf main_arg5
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : IVec S1x640000 32 := (extractStridedSlice S1x640000 ![0, 0] · slices_S2x640000_S1x640000_0_0) main_arg1
  let main_v30 : IVec S640000 32 := shapeCast S640000 main_v29 shapeCasts_S1x640000_S640000
  let main_c_10 : IVec S_ 32 := constantI S_ 32 0#32
  let main_v31 : IVec S640000 32 := broadcastInDim S640000 ![] bcast_S_S640000 main_c_10
  let main_v32 : IVec S640000 1 := cmpi .sge main_v30 main_v31
  let main_v33 : IVec S1x640000 32 := (extractStridedSlice S1x640000 ![0, 0] · slices_S2x640000_S1x640000_0_0) main_arg1
  let main_v34 : IVec S640000 32 := shapeCast S640000 main_v33 shapeCasts_S1x640000_S640000
  fn_part2 (F := F) main_v28 main_v32 main_v34

def fn {F : FTy → Type} [FloatOps F] (main_arg0 : FVec F S10000x128 .f32) (main_arg1 : IVec S2x640000 32) (main_arg2 : FVec F S640000x128 .f32) (main_arg3 : FVec F S384x128 .f32) (main_arg4 : FVec F S128 .f32) (main_arg5 : FVec F S256x128 .f32) (main_arg6 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S640000x128 .f32 := Host.absf main_arg2
  let main_cst_0 : FVec F S_ .f32 := constant S_ .f32 0x7F800000#32
  let main_v5 : FVec F S640000x128 .f32 := broadcastInDim S640000x128 ![] bcast_S_S640000x128 main_cst_0
  let main_v6 : IVec S640000x128 1 := cmpf .olt main_v4 main_v5
  let main_c_1 : IVec S_ 1 := constantI S_ 1 1#1
  let main_v7 : IVec S_ 1 := (fun x v => Host.reduce IntOp.andi x v reducesTo_S640000x128_S_d0_1 h_S_) main_v6 main_c_1
  let main_v8 : IVec S_ 1 := andi main_v3 main_v7
  let main_v9 : FVec F S384x128 .f32 := Host.absf main_arg3
  let main_cst_2 : FVec F S_ .f32 := constant S_ .f32 0x7F800000#32
  let main_v10 : FVec F S384x128 .f32 := broadcastInDim S384x128 ![] bcast_S_S384x128 main_cst_2
  let main_v11 : IVec S384x128 1 := cmpf .olt main_v9 main_v10
  let main_c_3 : IVec S_ 1 := constantI S_ 1 1#1
  let main_v12 : IVec S_ 1 := (fun x v => Host.reduce IntOp.andi x v reducesTo_S384x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg5 main_arg6 main_v13 main_v16
-- ==== Kernel.lean ====
abbrev S10000x128 : Shape := ⟨2, ![10000, 128]⟩
abbrev S2x640000 : Shape := ⟨2, ![2, 640000]⟩
abbrev S640000x128 : Shape := ⟨2, ![640000, 128]⟩
abbrev S384x128 : Shape := ⟨2, ![384, 128]⟩
abbrev S128 : Shape := ⟨1, ![128]⟩
abbrev S256x128 : Shape := ⟨2, ![256, 128]⟩
abbrev S1x640000 : Shape := ⟨2, ![1, 640000]⟩
abbrev S640000 : Shape := ⟨1, ![640000]⟩
abbrev S128x128 : Shape := ⟨2, ![128, 128]⟩
abbrev S1x128 : Shape := ⟨2, ![1, 128]⟩
abbrev S_ : Shape := ⟨0, ![]⟩
abbrev S640000x1 : Shape := ⟨2, ![640000, 1]⟩
abbrev S1 : Shape := ⟨1, ![1]⟩
abbrev S1x1 : Shape := ⟨2, ![1, 1]⟩
abbrev S6400x128 : Shape := ⟨2, ![6400, 128]⟩
abbrev S10000 : Shape := ⟨1, ![10000]⟩
abbrev S10000x1 : Shape := ⟨2, ![10000, 1]⟩
abbrev S5000x128 : Shape := ⟨2, ![5000, 128]⟩
abbrev S5000x1 : Shape := ⟨2, ![5000, 1]⟩
abbrev S5000x256 : Shape := ⟨2, ![5000, 256]⟩

abbrev nBuf : Space → Nat
  | .hbm => 52
  | .vmem => 20
  | .smem => 0
  | _ => 0

abbrev bufTy : (tb : Table) → Fin (tcTables nBuf tb) → BufTy
  | .hbm, ⟨0, _⟩ => ⟨S10000x128, .f32⟩
  | .hbm, ⟨1, _⟩ => ⟨S2x640000, .i32⟩
  | .hbm, ⟨2, _⟩ => ⟨S640000x128, .f32⟩
  | .hbm, ⟨3, _⟩ => ⟨S384x128, .f32⟩
  | .hbm, ⟨4, _⟩ => ⟨S128, .f32⟩
  | .hbm, ⟨5, _⟩ => ⟨S256x128, .f32⟩
  | .hbm, ⟨6, _⟩ => ⟨S128, .f32⟩
  | .hbm, ⟨7, _⟩ => ⟨S1x640000, .i32⟩
  | .hbm, ⟨8, _⟩ => ⟨S640000, .i32⟩
  | .hbm, ⟨9, _⟩ => ⟨S1x640000, .i32⟩
  | .hbm, ⟨10, _⟩ => ⟨S640000, .i32⟩
  | .hbm, ⟨11, _⟩ => ⟨S128x128, .f32⟩
  | .hbm, ⟨12, _⟩ => ⟨S128x128, .f32⟩
  | .hbm, ⟨13, _⟩ => ⟨S128x128, .f32⟩
  | .hbm, ⟨14, _⟩ => ⟨S1x128, .f32⟩
  | .hbm, ⟨15, _⟩ => ⟨S1x128, .f32⟩
  | .hbm, ⟨16, _⟩ => ⟨S_, .i32⟩
  | .hbm, ⟨17, _⟩ => ⟨S640000, .i32⟩
  | .hbm, ⟨18, _⟩ => ⟨S640000, .i1⟩
  | .hbm, ⟨19, _⟩ => ⟨S_, .i32⟩
  | .hbm, ⟨20, _⟩ => ⟨S640000, .i32⟩
  | .hbm, ⟨21, _⟩ => ⟨S640000, .i32⟩
  | .hbm, ⟨22, _⟩ => ⟨S640000, .i32⟩
  | .hbm, ⟨23, _⟩ => ⟨S640000x1, .i32⟩
  | .hbm, ⟨24, _⟩ => ⟨S1, .i32⟩
  | .hbm, ⟨25, _⟩ => ⟨S_, .i32⟩
  | .hbm, ⟨26, _⟩ => ⟨S640000x1, .i32⟩
  | .hbm, ⟨27, _⟩ => ⟨S640000x1, .i1⟩
  | .hbm, ⟨28, _⟩ => ⟨S1x1, .i32⟩
  | .hbm, ⟨29, _⟩ => ⟨S640000x1, .i32⟩
  | .hbm, ⟨30, _⟩ => ⟨S640000x1, .i1⟩
  | .hbm, ⟨31, _⟩ => ⟨S640000x1, .i1⟩
  | .hbm, ⟨32, _⟩ => ⟨S_, .i1⟩
  | .hbm, ⟨33, _⟩ => ⟨S640000, .i1⟩
  | .hbm, ⟨34, _⟩ => ⟨S640000x128, .f32⟩
  | .hbm, ⟨35, _⟩ => ⟨S640000x128, .i1⟩
  | .hbm, ⟨36, _⟩ => ⟨S_, .f32⟩
  | .hbm, ⟨37, _⟩ => ⟨S640000x128, .f32⟩
  | .hbm, ⟨38, _⟩ => ⟨S640000x128, .f32⟩
  | .hbm, ⟨39, _⟩ => ⟨S640000x128, .f32⟩
  | .hbm, ⟨40, _⟩ => ⟨S_, .f32⟩
  | .hbm, ⟨41, _⟩ => ⟨S10000x128, .f32⟩
  | .hbm, ⟨42, _⟩ => ⟨S640000x1, .i32⟩
  | .hbm, ⟨43, _⟩ => ⟨S10000x128, .f32⟩
  | .hbm, ⟨44, _⟩ => ⟨S_, .f32⟩
  | .hbm, ⟨45, _⟩ => ⟨S640000, .f32⟩
  | .hbm, ⟨46, _⟩ => ⟨S_, .f32⟩
  | .hbm, ⟨47, _⟩ => ⟨S10000, .f32⟩
  | .hbm, ⟨48, _⟩ => ⟨S640000x1, .i32⟩
  | .hbm, ⟨49, _⟩ => ⟨S10000, .f32⟩
  | .hbm, ⟨50, _⟩ => ⟨S10000x1, .f32⟩
  | .hbm, ⟨51, _⟩ => ⟨S10000x128, .f32⟩
  | .local _ .vmem, ⟨0, _⟩ => ⟨S6400x128, .f32⟩
  | .local _ .vmem, ⟨1, _⟩ => ⟨S6400x128, .f32⟩
  | .local _ .vmem, ⟨2, _⟩ => ⟨S6400x128, .f32⟩
  | .local _ .vmem, ⟨3, _⟩ => ⟨S6400x128, .f32⟩
  | .local _ .vmem, ⟨4, _⟩ => ⟨S128x128, .f32⟩
  | .local _ .vmem, ⟨5, _⟩ => ⟨S128x128, .f32⟩
  | .local _ .vmem, ⟨6, _⟩ => ⟨S6400x128, .f32⟩
  | .local _ .vmem, ⟨7, _⟩ => ⟨S6400x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x1, .f32⟩
  | .local _ .vmem, ⟨13, _⟩ => ⟨S5000x1, .f32⟩
  | .local _ .vmem, ⟨14, _⟩ => ⟨S128x128, .f32⟩
  | .local _ .vmem, ⟨15, _⟩ => ⟨S1x128, .f32⟩
  | .local _ .vmem, ⟨16, _⟩ => ⟨S256x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_call0_c : Ref sig .tc := ⟨.hbm, 16, rfl⟩
abbrev main_call0_v0 : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_c_1 : Ref sig .tc := ⟨.hbm, 24, rfl⟩
abbrev main_call0_c_2 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_3 : Ref sig .tc := ⟨.hbm, 32, rfl⟩
abbrev main_call0_v12 : Ref sig .tc := ⟨.hbm, 33, rfl⟩
abbrev main_call0_v13 : Ref sig .tc := ⟨.hbm, 34, rfl⟩
abbrev main_call0_v14 : Ref sig .tc := ⟨.hbm, 35, rfl⟩
abbrev main_call0_cst : Ref sig .tc := ⟨.hbm, 36, rfl⟩
abbrev main_call0_v15 : Ref sig .tc := ⟨.hbm, 37, rfl⟩
abbrev main_v9 : Ref sig .tc := ⟨.hbm, 38, rfl⟩
abbrev main_v10 : Ref sig .tc := ⟨.hbm, 39, rfl⟩
abbrev main_cst : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_cst_0 : Ref sig .tc := ⟨.hbm, 44, rfl⟩
abbrev main_v14 : Ref sig .tc := ⟨.hbm, 45, rfl⟩
abbrev main_cst_1 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6400x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S6400x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![2], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  slices_S384x128_S128x128_0_0 : S384x128.Slices ![0, 0] S128x128
  slices_S384x128_S128x128_128_0 : S384x128.Slices ![128, 0] S128x128
  slices_S384x128_S128x128_256_0 : S384x128.Slices ![256, 0] S128x128
  shapeCasts_S128_S1x128 : S128.ShapeCasts S1x128
  bcast_S_S640000 : S_.BroadcastsInDim S640000 (![] : Fin 0 → Fin S640000.rank)
  bcast_S640000_S640000x1_0 : S640000.BroadcastsInDim S640000x1 (![0] : Fin 1 → Fin S640000x1.rank)
  bcast_S_S640000x1 : S_.BroadcastsInDim S640000x1 (![] : Fin 0 → Fin S640000x1.rank)
  bcast_S1_S1x1_1 : S1.BroadcastsInDim S1x1 (![1] : Fin 1 → Fin S1x1.rank)
  bcast_S1x1_S640000x1_0_1 : S1x1.BroadcastsInDim S640000x1 (![0, 1] : Fin 2 → Fin S640000x1.rank)
  reducesTo_S640000x1_S640000_d1 : S640000x1.ReducesTo [1] S640000
  h_S_ : 0 < S_.numel
  bcast_S640000_S640000x128_0 : S640000.BroadcastsInDim S640000x128 (![0] : Fin 1 → Fin S640000x128.rank)
  bcast_S_S640000x128 : S_.BroadcastsInDim S640000x128 (![] : Fin 0 → Fin S640000x128.rank)
  inb_S6400x128_S6400x128_0_0 : ∀ a, (![0, 0] : Fin 2 → Nat) a + S6400x128.size a ≤ S6400x128.size a
  h_S6400x128 : 0 < S6400x128.numel
  shapeCasts_S6400x128_S6400x128 : S6400x128.ShapeCasts S6400x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S_S10000x128 : S_.BroadcastsInDim S10000x128 (![] : Fin 0 → Fin S10000x128.rank)
  bcast_S_S10000 : S_.BroadcastsInDim S10000 (![] : Fin 0 → Fin S10000.rank)
  shapeCasts_S10000_S10000x1 : S10000.ShapeCasts S10000x1
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  broadcasts_S5000x1_S5000x128 : S5000x1.Broadcasts S5000x128
  concatenates_S5000x128_S5000x128_S5000x256_d1 : Shape.Concatenates [S5000x128, S5000x128] S5000x256 1
  inb_S256x128_S256x128_0_0 : ∀ a, (![0, 0] : Fin 2 → Nat) a + S256x128.size a ≤ S256x128.size a
  h_S256x128 : 0 < S256x128.numel
  gather_S10000x128_S640000x1_S640000x128_1_0_n_n_0_1_1128_wf : GatherDims.WF S10000x128 S640000x1 S640000x128 [1] [0] [] [0] [] 1 ![1, 128]
  dot_S6400x128_S128x128_S6400x128_1_0_0_1_n_n_wf : DotDims.WF S6400x128 S128x128 S6400x128 [1] [0] [0] [1] [] []
  scatter_S10000x128_S640000x1_S640000x128_1_0_0_1_wf : ScatterDims.WF S10000x128 S640000x1 S640000x128 [1] [0] [0] 1
  scatter_S10000_S640000x1_S640000_n_0_0_1_wf : ScatterDims.WF S10000 S640000x1 S640000 [] [0] [0] 1
  dot_S5000x128_S128x128_S5000x128_1_0_0_1_n_n_wf : DotDims.WF S5000x128 S128x128 S5000x128 [1] [0] [0] [1] [] []
  dot_S5000x256_S256x128_S5000x128_1_0_0_1_n_n_wf : DotDims.WF S5000x256 S256x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x128.size a ≤ S640000x128.size a
  hwx0_0 : ∀ i : grid0.Coords, EltTy.bits .f32 = 32 ∨ (Rect.block (s := S640000x128) S6400x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6400x128.size a ≤ S640000x128.size a
  hwx0_1 : ∀ i : grid0.Coords, EltTy.bits .f32 = 32 ∨ (Rect.block (s := S640000x128) S6400x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S6400x128.size a ≤ S640000x128.size a
  hwx0_4 : ∀ i : grid0.Coords, EltTy.bits .f32 = 32 ∨ (Rect.block (s := S640000x128) S6400x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S10000x128.size a
  hwx1_0 : ∀ i : grid1.Coords, EltTy.bits .f32 = 32 ∨ (Rect.block (s := S10000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S10000x128.size a
  hwx1_1 : ∀ i : grid1.Coords, EltTy.bits .f32 = 32 ∨ (Rect.block (s := S10000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S10000x1.size a
  hwx1_2 : ∀ i : grid1.Coords, EltTy.bits .f32 = 32 ∨ (Rect.block (s := S10000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x128.size a ≤ S256x128.size a
  hwx1_5 : ∀ i : grid1.Coords, EltTy.bits .f32 = 32 ∨ (Rect.block (s := S256x128) S256x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S10000x128.size a
  hwx1_7 : ∀ i : grid1.Coords, EltTy.bits .f32 = 32 ∨ (Rect.block (s := S10000x128) S5000x128.size (cc1_transform_7 i) (hinb1_7 i)).WholeWords (EltTy.packing .f32)

variable [Facts₀]

def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def dot_S6400x128_S128x128_S6400x128_1_0_0_1_n_n : DotDims S6400x128 S128x128 S6400x128 where
  lhsContracting := [1]
  rhsContracting := [0]
  lhsNonContracting := [0]
  rhsNonContracting := [1]
  lhsBatch := []
  rhsBatch := []
  wf := dot_S6400x128_S128x128_S6400x128_1_0_0_1_n_n_wf
def scatter_S10000x128_S640000x1_S640000x128_1_0_0_1 : ScatterDims S10000x128 S640000x1 S640000x128 where
  updateWindowDims := [1]
  insertedWindowDims := [0]
  scatterDimsToOperandDims := [0]
  indexVectorDim := 1
  wf := scatter_S10000x128_S640000x1_S640000x128_1_0_0_1_wf
def scatter_S10000_S640000x1_S640000_n_0_0_1 : ScatterDims S10000 S640000x1 S640000 where
  updateWindowDims := []
  insertedWindowDims := [0]
  scatterDimsToOperandDims := [0]
  indexVectorDim := 1
  wf := scatter_S10000_S640000x1_S640000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf

abbrev win0_0 : Pipeline.Window sig grid0 :=
  Pipeline.Window.ofSpec (Memref.whole main_v9) S6400x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S6400x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S6400x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v13) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v18) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v7) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg5) S256x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v8) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v19) S5000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S10000x128 : Shape := ⟨2, ![10000, 128]⟩
abbrev S2x640000 : Shape := ⟨2, ![2, 640000]⟩
abbrev S640000x128 : Shape := ⟨2, ![640000, 128]⟩
abbrev S384x128 : Shape := ⟨2, ![384, 128]⟩
abbrev S128 : Shape := ⟨1, ![128]⟩
abbrev S256x128 : Shape := ⟨2, ![256, 128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x384 : Shape := ⟨2, ![640000, 384]⟩
abbrev S1x128 : Shape := ⟨2, ![1, 128]⟩
abbrev S10000x256 : Shape := ⟨2, ![10000, 256]⟩

abbrev nBuf : Space → Nat
  | .hbm => 43
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S2x640000, .i32⟩
  | .hbm, ⟨2, _⟩ => ⟨S640000x128, .f32⟩
  | .hbm, ⟨3, _⟩ => ⟨S384x128, .f32⟩
  | .hbm, ⟨4, _⟩ => ⟨S128, .f32⟩
  | .hbm, ⟨5, _⟩ => ⟨S256x128, .f32⟩
  | .hbm, ⟨6, _⟩ => ⟨S128, .f32⟩
  | .hbm, ⟨7, _⟩ => ⟨S1x640000, .i32⟩
  | .hbm, ⟨8, _⟩ => ⟨S640000, .i32⟩
  | .hbm, ⟨9, _⟩ => ⟨S1x640000, .i32⟩
  | .hbm, ⟨10, _⟩ => ⟨S640000, .i32⟩
  | .hbm, ⟨11, _⟩ => ⟨S_, .i32⟩
  | .hbm, ⟨12, _⟩ => ⟨S640000, .i32⟩
  | .hbm, ⟨13, _⟩ => ⟨S640000, .i1⟩
  | .hbm, ⟨14, _⟩ => ⟨S_, .i32⟩
  | .hbm, ⟨15, _⟩ => ⟨S640000, .i32⟩
  | .hbm, ⟨16, _⟩ => ⟨S640000, .i32⟩
  | .hbm, ⟨17, _⟩ => ⟨S640000, .i32⟩
  | .hbm, ⟨18, _⟩ => ⟨S640000x1, .i32⟩
  | .hbm, ⟨19, _⟩ => ⟨S640000x128, .f32⟩
  | .hbm, ⟨20, _⟩ => ⟨S_, .i32⟩
  | .hbm, ⟨21, _⟩ => ⟨S640000, .i32⟩
  | .hbm, ⟨22, _⟩ => ⟨S640000, .i1⟩
  | .hbm, ⟨23, _⟩ => ⟨S_, .i32⟩
  | .hbm, ⟨24, _⟩ => ⟨S640000, .i32⟩
  | .hbm, ⟨25, _⟩ => ⟨S640000, .i32⟩
  | .hbm, ⟨26, _⟩ => ⟨S640000, .i32⟩
  | .hbm, ⟨27, _⟩ => ⟨S640000x1, .i32⟩
  | .hbm, ⟨28, _⟩ => ⟨S640000x128, .f32⟩
  | .hbm, ⟨29, _⟩ => ⟨S640000x384, .f32⟩
  | .hbm, ⟨30, _⟩ => ⟨S640000x128, .f32⟩
  | .hbm, ⟨31, _⟩ => ⟨S1x128, .f32⟩
  | .hbm, ⟨32, _⟩ => ⟨S640000x128, .f32⟩
  | .hbm, ⟨33, _⟩ => ⟨S640000x128, .f32⟩
  | .hbm, ⟨34, _⟩ => ⟨S_, .f32⟩
  | .hbm, ⟨35, _⟩ => ⟨S10000x128, .f32⟩
  | .hbm, ⟨36, _⟩ => ⟨S640000x1, .i32⟩
  | .hbm, ⟨37, _⟩ => ⟨S10000x128, .f32⟩
  | .hbm, ⟨38, _⟩ => ⟨S10000x256, .f32⟩
  | .hbm, ⟨39, _⟩ => ⟨S10000x128, .f32⟩
  | .hbm, ⟨40, _⟩ => ⟨S1x128, .f32⟩
  | .hbm, ⟨41, _⟩ => ⟨S10000x128, .f32⟩
  | .hbm, ⟨42, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  concatenates_S640000x128_S640000x128_S640000x128_S640000x384_d1 : Shape.Concatenates [S640000x128, S640000x128, S640000x128] S640000x384 1
  bcast_S128_S1x128_1 : S128.BroadcastsInDim S1x128 (![1] : Fin 1 → Fin S1x128.rank)
  bcast_S1x128_S640000x128_0_1 : S1x128.BroadcastsInDim S640000x128 (![0, 1] : Fin 2 → Fin S640000x128.rank)
  bcast_S_S10000x128 : S_.BroadcastsInDim S10000x128 (![] : Fin 0 → Fin S10000x128.rank)
  concatenates_S10000x128_S10000x128_S10000x256_d1 : Shape.Concatenates [S10000x128, S10000x128] S10000x256 1
  bcast_S1x128_S10000x128_0_1 : S1x128.BroadcastsInDim S10000x128 (![0, 1] : Fin 2 → Fin S10000x128.rank)
  gather_S10000x128_S640000x1_S640000x128_1_0_n_n_0_1_1128_wf : GatherDims.WF S10000x128 S640000x1 S640000x128 [1] [0] [] [0] [] 1 ![1, 128]
  dot_S640000x384_S384x128_S640000x128_1_0_0_1_n_n_wf : DotDims.WF S640000x384 S384x128 S640000x128 [1] [0] [0] [1] [] []
  scatter_S10000x128_S640000x1_S640000x128_1_0_0_1_wf : ScatterDims.WF S10000x128 S640000x1 S640000x128 [1] [0] [0] 1
  dot_S10000x256_S256x128_S10000x128_1_0_0_1_n_n_wf : DotDims.WF S10000x256 S256x128 S10000x128 [1] [0] [0] [1] [] []

variable [Facts₀]

def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def dot_S640000x384_S384x128_S640000x128_1_0_0_1_n_n : DotDims S640000x384 S384x128 S640000x128 where
  lhsContracting := [1]
  rhsContracting := [0]
  lhsNonContracting := [0]
  rhsNonContracting := [1]
  lhsBatch := []
  rhsBatch := []
  wf := dot_S640000x384_S384x128_S640000x128_1_0_0_1_n_n_wf
def scatter_S10000x128_S640000x1_S640000x128_1_0_0_1 : ScatterDims S10000x128 S640000x1 S640000x128 where
  updateWindowDims := [1]
  insertedWindowDims := [0]
  scatterDimsToOperandDims := [0]
  indexVectorDim := 1
  wf := scatter_S10000x128_S640000x1_S640000x128_1_0_0_1_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf

class Facts : Prop extends Facts₀ where

variable [Facts]
-- ==== Proof.MPSpec.lean ====
/-
  One round of message passing on a graph, written as sums over the extended reals.

  Every edge `e` has a source row `sr e` and a target row `dr e` of the node table `x : [10000, 128]`, and a target
  word whose signed value `dz e` decides which node (if any) receives the edge's message. The message of edge `e` is
  the linear layer `W1 : [384, 128]`, `b1` applied to the concatenation of `x[sr e]`, `x[dr e]` and the edge's own
  features `ea[e]` (`msgAt`); node `n` receives the sum of the messages of the edges with `dz e = n` (`aggAt`); the
  output is the linear layer `W2 : [256, 128]`, `b2` applied to the concatenation of that sum and `x[n]` (`outAt`).

  The same aggregate, arranged otherwise (`hidAt`): a 384-term contraction is three 128-term ones, one per block of
  `W1`'s rows; on the edges received by `n` the middle block contracts `x[n]` itself, the same value for every such
  edge, and so does the bias; so these two are added once per received edge, that is, multiplied by the number of
  received edges, itself the sum of a `1` per received edge. Only commutativity and associativity of the sum are used,
  and `(1 + c) · v = v + c · v` for `c ≥ 0`, which holds on the extended reals at the infinities too
  (`hid_eq_agg`): no finiteness is asked of the entries.
-/
import Idealize.ShloMosaic.PureOps.Ideal
import Idealize.ShloMosaic.Lib.ValueIdx
import Mathlib.Algebra.BigOperators.Fin
import Mathlib.Data.EReal.Operations

noncomputable section

namespace Cert.MP

open Idealize.ShloMosaic Idealize.ShloMosaic.ValueIdx
open scoped BigOperators

/-- An `a × b` matrix of extended reals, indexed as the programs index their rank-2 arrays. -/
abbrev Mat (a b : ℕ) : Type := (⟨2, ![a, b]⟩ : Shape).Idx → EReal
/-- A vector of `a` extended reals. -/
abbrev Row (a : ℕ) : Type := (⟨1, ![a]⟩ : Shape).Idx → EReal

/-! ## Two laws of sums -/

/-- A sum over 384 positions is the sum of its three consecutive blocks of 128. -/
theorem sum_three_blocks {M : Type*} [AddCommMonoid M] (f : Fin 384 → M) :
    ∑ k : Fin 384, f k
      = (∑ k : Fin 128, f ⟨k.val, by omega⟩) + (∑ k : Fin 128, f ⟨128 + k.val, by omega⟩)
        + (∑ k : Fin 128, f ⟨256 + k.val, by omega⟩) := by
  have h1 := Fin.sum_univ_add (M := M) (a := 256) (b := 128) (fun i : Fin (256 + 128) => f i)
  have h2 := Fin.sum_univ_add (M := M) (a := 128) (b := 128) (fun i : Fin (128 + 128) => f (Fin.castAdd 128 i))
  rw [h1, h2]
  rfl

/-- A count — a `1` per element of `S` — times `v` is `v` added once per element of `S`: on the extended reals too,
    whatever `v` is, since the partial counts are not negative. -/
theorem sum_ones_mul {ι : Type} (S : Finset ι) (v : EReal) : (∑ _e ∈ S, (1 : EReal)) * v = ∑ _e ∈ S, v := by
  classical
  induction S using Finset.induction_on with
  | empty => simp
  | insert a S ha ih =>
    rw [Finset.sum_insert ha, Finset.sum_insert ha,
      EReal.right_distrib_of_nonneg zero_le_one (Finset.sum_nonneg fun _ _ => zero_le_one), one_mul, ih]

/-- Over the edges selected by `p`: the sum of `A e + C e`, plus the number of selected edges times `B + b`, is the
    sum of `A e + B + C e + b`. -/
theorem sum_selected_split {ι : Type} [Fintype ι] (p : ι → Prop) [DecidablePred p] (A C : ι → EReal) (B b : EReal) :
    (0 + ∑ e, if p e then A e + C e else 0) + (0 + ∑ e, if p e then (1 : EReal) else 0) * (B + b)
      = 0 + ∑ e, if p e then A e + B + C e + b else 0 := by
  simp only [zero_add, ← Finset.sum_filter]
  rw [sum_ones_mul, ← Finset.sum_add_distrib]
  refine Finset.sum_congr rfl fun e _ => ?_
  rw [add_add_add_comm, ← add_assoc]

/-! ## The reference's arrangement -/

section
variable (x : Mat 10000 128) (sr dr : Fin 640000 → Fin 10000) (dz : Fin 640000 → ℤ) (ea : Mat 640000 128)
  (w1 : Mat 384 128) (b1 : Row 128) (w2 : Mat 256 128) (b2 : Row 128)

/-- Entry `k` of edge `e`'s concatenated input: the source's features, then the target's, then the edge's own. -/
def inpAt (e : Fin 640000) (k : Fin 384) : EReal :=
  if h1 : k.val < 128 then x (ix2 (sr e) ⟨k.val, h1⟩)
  else if h2 : k.val < 256 then x (ix2 (dr e) ⟨k.val - 128, by omega⟩)
  else ea (ix2 e ⟨k.val - 256, by omega⟩)

/-- On the first block the input is the source's features. -/
theorem inpAt_lo (e : Fin 640000) (k : Fin 128) :
    inpAt x sr dr ea e ⟨k.val, by omega⟩ = x (ix2 (sr e) k) := by
  unfold inpAt
  rw [dif_pos (show (⟨k.val, by omega⟩ : Fin 384).val < 128 from k.isLt)]

/-- On the middle block it is the target's features. -/
theorem inpAt_mid (e : Fin 640000) (k : Fin 128) :
    inpAt x sr dr ea e ⟨128 + k.val, by omega⟩ = x (ix2 (dr e) k) := by
  unfold inpAt
  rw [dif_neg (show ¬ (⟨128 + k.val, by omega⟩ : Fin 384).val < 128 from by show ¬ (128 + k.val < 128); omega),
    dif_pos (show (⟨128 + k.val, by omega⟩ : Fin 384).val < 256 from by show 128 + k.val < 256; omega)]
  exact congrArg (fun j => x (ix2 (dr e) j)) (Fin.ext (by show _ + k.val - _ = k.val; omega))

/-- On the last block it is the edge's own features. -/
theorem inpAt_hi (e : Fin 640000) (k : Fin 128) :
    inpAt x sr dr ea e ⟨256 + k.val, by omega⟩ = ea (ix2 e k) := by
  unfold inpAt
  rw [dif_neg (show ¬ (⟨256 + k.val, by omega⟩ : Fin 384).val < 128 from by show ¬ (256 + k.val < 128); omega),
    dif_neg (show ¬ (⟨256 + k.val, by omega⟩ : Fin 384).val < 256 from by show ¬ (256 + k.val < 256); omega)]
  exact congrArg (fun j => ea (ix2 e j)) (Fin.ext (by show _ + k.val - _ = k.val; omega))

/-- Edge `e`'s message, component `h`. -/
def msgAt (e : Fin 640000) (h : Fin 128) : EReal :=
  (∑ k : Fin 384, inpAt x sr dr ea e k * w1 (ix2 k h)) + b1 (ix1 h)

/-- What node `n` receives, component `h`: from zero, the messages of the edges whose target word is `n`. -/
def aggAt (n : Fin 10000) (h : Fin 128) : EReal :=
  0 + ∑ e : Fin 640000, if dz e = (n.val : ℤ) then msgAt x sr dr ea w1 b1 e h else 0

/-! ## The other arrangement -/

/-- The source's and the edge's own share of edge `e`'s message: the first and the third block of `W1`'s rows. -/
def mixAt (e : Fin 640000) (h : Fin 128) : EReal :=
  (∑ k : Fin 128, x (ix2 (sr e) k) * w1 (ix2 ⟨k.val, by omega⟩ h))
    + (∑ k : Fin 128, ea (ix2 e k) * w1 (ix2 ⟨256 + k.val, by omega⟩ h))

/-- Node `n`'s own share of every message it receives: the middle block of `W1`'s rows on `x[n]`, and the bias. -/
def selfAt (n : Fin 10000) (h : Fin 128) : EReal :=
  (∑ k : Fin 128, x (ix2 n k) * w1 (ix2 ⟨128 + k.val, by omega⟩ h)) + b1 (ix1 h)

/-- The aggregate rebuilt: the received shares, plus the number of received edges times the node's own share. -/
def hidAt (n : Fin 10000) (h : Fin 128) : EReal :=
  (0 + ∑ e : Fin 640000, if dz e = (n.val : ℤ) then mixAt x sr ea w1 e h else 0)
    + (0 + ∑ e : Fin 640000, if dz e = (n.val : ℤ) then (1 : EReal) else 0) * selfAt x w1 b1 n h

/-- THE TWO ARRANGEMENTS AGREE, provided an edge whose target word is `n` has target row `n`. -/
theorem hid_eq_agg (hdr : ∀ (e : Fin 640000) (n : Fin 10000), dz e = (n.val : ℤ) → dr e = n)
    (n : Fin 10000) (h : Fin 128) :
    hidAt x sr dz ea w1 b1 n h = aggAt x sr dr dz ea w1 b1 n h := by
  unfold hidAt aggAt selfAt mixAt
  rw [sum_selected_split]
  refine congrArg (fun s => (0 : EReal) + s) (Finset.sum_congr rfl fun e _ => ?_)
  by_cases he : dz e = (n.val : ℤ)
  · rw [if_pos he, if_pos he]
    unfold msgAt
    rw [sum_three_blocks]
    simp only [inpAt_lo, inpAt_mid, inpAt_hi, hdr e n he]
  · rw [if_neg he, if_neg he]

/-! ## The output layer, shared -/

/-- Entry `k` of node `n`'s concatenated input to the output layer: the aggregate `hid`, then `x[n]`. -/
def catAt (hid : Fin 10000 → Fin 128 → EReal) (n : Fin 10000) (k : Fin 256) : EReal :=
  if h : k.val < 128 then hid n ⟨k.val, h⟩ else x (ix2 n ⟨k.val - 128, by omega⟩)

/-- The output layer at `(n, o)`. -/
def outAt (hid : Fin 10000 → Fin 128 → EReal) (n : Fin 10000) (o : Fin 128) : EReal :=
  (∑ k : Fin 256, catAt x hid n k * w2 (ix2 k o)) + b2 (ix1 o)

end

/-! ## The two stages on whole arrays

What each of the kernel's two launches computes of its operand arrays, index by index: the first, per edge, the
source's and the edge's own share of the message from the gathered source rows `g` and two blocks `wa`, `wc` of
`W1`'s rows; the second, per node, the rebuilt aggregate from the received shares `agg`, the number of received edges
`deg` (a column), the middle block `wb` and the bias as a row, then the output layer. -/

/-- The first launch's result. -/
def edgeMix (g ea : Mat 640000 128) (wa wc : Mat 128 128) : Mat 640000 128 := fun i =>
  (∑ k : Fin 128, g (ix2 (i 0) k) * wa (ix2 k (i 1))) + (∑ k : Fin 128, ea (ix2 (i 0) k) * wc (ix2 k (i 1)))

theorem edgeMix_apply (g ea : Mat 640000 128) (wa wc : Mat 128 128) (e : Fin 640000) (h : Fin 128) :
    edgeMix g ea wa wc (ix2 e h)
      = (∑ k : Fin 128, g (ix2 e k) * wa (ix2 k h)) + (∑ k : Fin 128, ea (ix2 e k) * wc (ix2 k h)) := rfl

/-- The second launch's aggregate at `(n, h)`. -/
def nodeHid (agg x : Mat 10000 128) (deg : Mat 10000 1) (wb : Mat 128 128) (b1r : Mat 1 128)
    (n : Fin 10000) (h : Fin 128) : EReal :=
  agg (ix2 n h) + deg (ix2 n 0) * ((∑ k : Fin 128, x (ix2 n k) * wb (ix2 k h)) + b1r (ix2 0 h))

/-- The second launch's result. -/
def nodeOut (agg x : Mat 10000 128) (deg : Mat 10000 1) (wb : Mat 128 128) (b1r : Mat 1 128)
    (w2 : Mat 256 128) (b2r : Mat 1 128) : Mat 10000 128 := fun i =>
  (∑ k : Fin 256, catAt x (nodeHid agg x deg wb b1r) (i 0) k * w2 (ix2 k (i 1))) + b2r (ix2 0 (i 1))

theorem nodeOut_apply (agg x : Mat 10000 128) (deg : Mat 10000 1) (wb : Mat 128 128) (b1r : Mat 1 128)
    (w2 : Mat 256 128) (b2r : Mat 1 128) (n : Fin 10000) (o : Fin 128) :
    nodeOut agg x deg wb b1r w2 b2r (ix2 n o)
      = (∑ k : Fin 256, catAt x (nodeHid agg x deg wb b1r) n k * w2 (ix2 k o)) + b2r (ix2 0 o) := rfl

end Cert.MP

end
-- ==== Proof.KernelStages.lean ====
/-
  The kernel program's host side as functions of the argument arrays, at the ideal values: the operations of @main
  around its two launches, composed in program order, with the two launches themselves as the whole-array functions
  `edgeMix` and `nodeOut`.
-/
import proofs.«419142_j5557687681588_3_alg».proof.KernelIdeal
import proofs.«419142_j5557687681588_3_alg».proof.Proof.Gen.KernelIdeal
import proofs.«419142_j5557687681588_3_alg».proof.Proof.MPSpec
import Idealize.ShloMosaic.PureOps.Ideal

noncomputable section

namespace Cert.KernelIdeal.Stages

open Cert.KernelIdeal Cert.KernelIdeal.Gen
open Idealize.ShloMosaic Idealize.ShloMosaic.TcCoe

/-- Row 0 of the edge list: the source words. -/
def srcW (a1 : IVec S2x640000 32) : IVec S640000 32 :=
  shapeCast S640000 (extractStridedSlice S1x640000 ![0, 0] a1 slices_S2x640000_S1x640000_0_0) shapeCasts_S1x640000_S640000
/-- Row 1 of the edge list: the target words. -/
def dstW (a1 : IVec S2x640000 32) : IVec S640000 32 :=
  shapeCast S640000 (extractStridedSlice S1x640000 ![1, 0] a1 slices_S2x640000_S1x640000_1_0) shapeCasts_S1x640000_S640000
/-- The three 128-row blocks of the first layer's weights. -/
def w1a (a3 : FVec Ideal S384x128 .f32) : FVec Ideal S128x128 .f32 :=
  extractStridedSlice S128x128 ![0, 0] a3 slices_S384x128_S128x128_0_0
def w1b (a3 : FVec Ideal S384x128 .f32) : FVec Ideal S128x128 .f32 :=
  extractStridedSlice S128x128 ![128, 0] a3 slices_S384x128_S128x128_128_0
def w1c (a3 : FVec Ideal S384x128 .f32) : FVec Ideal S128x128 .f32 :=
  extractStridedSlice S128x128 ![256, 0] a3 slices_S384x128_S128x128_256_0
/-- A bias vector as a one-row matrix. -/
def asRow (a : FVec Ideal S128 .f32) : FVec Ideal S1x128 .f32 := shapeCast S1x128 a shapeCasts_S128_S1x128

/-- The index words with the extent added where negative. -/
def wrapW (s : IVec S640000 32) : IVec S640000 32 :=
  select (cmpi .slt s (broadcastInDim S640000 ![] bcast_S_S640000 (constantI S_ 32 0#32)))
    (addi s (broadcastInDim S640000 ![] bcast_S_S640000 (constantI S_ 32 10000#32))) s
/-- The gather's start indices: the wrapped words as a column. -/
def startIdx (s : IVec S640000 32) : IVec S640000x1 32 :=
  broadcastInDim S640000x1 ![0] bcast_S640000_S640000x1_0 (wrapW s)
/-- Per edge: does the wrapped word lie in `[0, 9999]`? -/
def inBounds (s : IVec S640000 32) : IVec S640000 1 :=
  Host.reduce IntOp.andi
    (andi (cmpi .sge (startIdx s) (broadcastInDim S640000x1 ![] bcast_S_S640000x1 (constantI S_ 32 0#32)))
      (cmpi .sle (startIdx s) (broadcastInDim S640000x1 ![0, 1] bcast_S1x1_S640000x1_0_1
        (broadcastInDim S1x1 ![1] bcast_S1_S1x1_1 (constantI S1 32 9999#32)))))
    (constantI S_ 1 1#1) reducesTo_S640000x1_S640000_d1 h_S_
/-- The rows of `x` taken at the words `s`, an out-of-bounds row filled with the NaN word. -/
def takeRows (x : FVec Ideal S10000x128 .f32) (s : IVec S640000 32) : FVec Ideal S640000x128 .f32 :=
  select (broadcastInDim S640000x128 ![0] bcast_S640000_S640000x128_0 (inBounds s))
    (Host.gather gather_S10000x128_S640000x1_S640000x128_1_0_n_n_0_1_1128 x (startIdx s))
    (broadcastInDim S640000x128 ![] bcast_S_S640000x128 (constant S_ .f32 0x7FC00000#32))

/-- The per-edge rows `comb` added into zeros at the target words. -/
def aggOf (d : IVec S640000 32) (comb : FVec Ideal S640000x128 .f32) : FVec Ideal S10000x128 .f32 :=
  Host.scatterAdd scatter_S10000x128_S640000x1_S640000x128_1_0_0_1
    (broadcastInDim S10000x128 ![] bcast_S_S10000x128 (constant S_ .f32 0x00000000#32))
    (broadcastInDim S640000x1 ![0] bcast_S640000_S640000x1_0 d) comb
/-- A one per edge added into zeros at the target words, as a column: how many edges each node receives. -/
def degOf (d : IVec S640000 32) : FVec Ideal S10000x1 .f32 :=
  shapeCast S10000x1
    (Host.scatterAdd scatter_S10000_S640000x1_S640000_n_0_0_1
      (broadcastInDim S10000 ![] bcast_S_S10000 (constant S_ .f32 0x00000000#32))
      (broadcastInDim S640000x1 ![0] bcast_S640000_S640000x1_0 d)
      (broadcastInDim S640000 ![] bcast_S_S640000 (constant S_ .f32 0x3F800000#32)))
    shapeCasts_S10000_S10000x1

/-- THE KERNEL PROGRAM'S RESULT as a function of its seven arguments. -/
def kernelVal (a0 : FVec Ideal S10000x128 .f32) (a1 : IVec S2x640000 32) (a2 : FVec Ideal S640000x128 .f32)
    (a3 : FVec Ideal S384x128 .f32) (a4 : FVec Ideal S128 .f32) (a5 : FVec Ideal S256x128 .f32)
    (a6 : FVec Ideal S128 .f32) : FVec Ideal S10000x128 .f32 :=
  Cert.MP.nodeOut (aggOf (dstW a1) (Cert.MP.edgeMix (takeRows a0 (srcW a1)) a2 (w1a a3) (w1c a3))) a0
    (degOf (dstW a1)) (w1b a3) (asRow a4) a5 (asRow a6)

end Cert.KernelIdeal.Stages

end
-- ==== Proof.LibPlainMatmul.lean ====
/-
  A plain matrix product read at one element.

  `[a, k] × [k, b] → [a, b]` with the left operand's second axis contracted against the right operand's first, no batch
  axis: the product into a zero accumulator reads, at `(p, q)`, the sum over `j < k` of `lhs (p, j) · rhs (j, q)`.
  The contraction index of the dimension numbers is a one-coordinate index; the sum is re-indexed through its one
  coordinate, and each operand index is identified axis by axis (the free axis from the result index, the contracted
  axis from the contraction index).
-/
import Idealize.ShloMosaic.PureOps.Ideal.Laws
import Idealize.ShloMosaic.Lib.ValueIdx
import Mathlib.Algebra.BigOperators.Fin

namespace Cert.Lib.PlainMatmul

open Idealize.ShloMosaic Idealize.ShloMosaic.ValueIdx
open scoped BigOperators

/-- The dimension numbers of a plain product: contract the left's axis 1 with the right's axis 0. -/
abbrev plainDims (a k b : ℕ) (wf : DotDims.WF ⟨2, ![a, k]⟩ ⟨2, ![k, b]⟩ ⟨2, ![a, b]⟩ [1] [0] [0] [1] [] []) :
    DotDims ⟨2, ![a, k]⟩ ⟨2, ![k, b]⟩ ⟨2, ![a, b]⟩ where
  lhsContracting := [1]
  rhsContracting := [0]
  lhsNonContracting := [0]
  rhsNonContracting := [1]
  lhsBatch := []
  rhsBatch := []
  wf := wf

section
variable {a k b : ℕ} (wf : DotDims.WF ⟨2, ![a, k]⟩ ⟨2, ![k, b]⟩ ⟨2, ![a, b]⟩ [1] [0] [0] [1] [] [])

/-- The left operand's row is the result's row. -/
theorem lhs_row (j : (⟨2, ![a, b]⟩ : Shape).Idx) (q : (plainDims a k b wf).contr.Idx) :
    ((plainDims a k b wf).lhsIdx j q 0).val = (j 0).val := by
  unfold DotDims.lhsIdx
  rw [dif_neg (show ¬(0 : Fin 2) ∈ (plainDims a k b wf).lhsBatch from List.not_mem_nil),
    dif_pos (show (0 : Fin 2) ∈ (plainDims a k b wf).lhsNonContracting from List.mem_singleton.mpr rfl)]
  rfl

/-- The left operand's column is the contraction coordinate. -/
theorem lhs_col (j : (⟨2, ![a, b]⟩ : Shape).Idx) (q : (plainDims a k b wf).contr.Idx) :
    ((plainDims a k b wf).lhsIdx j q 1).val = (q ⟨0, Nat.one_pos⟩).val :=
  (plainDims a k b wf).lhsIdx_val_of_single rfl j q

/-- The right operand's row is the contraction coordinate. -/
theorem rhs_row (j : (⟨2, ![a, b]⟩ : Shape).Idx) (q : (plainDims a k b wf).contr.Idx) :
    ((plainDims a k b wf).rhsIdx j q 0).val = (q ⟨0, Nat.one_pos⟩).val :=
  (plainDims a k b wf).rhsIdx_val_of_single rfl j q

/-- The right operand's column is the result's column. -/
theorem rhs_col (j : (⟨2, ![a, b]⟩ : Shape).Idx) (q : (plainDims a k b wf).contr.Idx) :
    ((plainDims a k b wf).rhsIdx j q 1).val = (j 1).val := by
  unfold DotDims.rhsIdx
  rw [dif_neg (show ¬(1 : Fin 2) ∈ (plainDims a k b wf).rhsBatch from List.not_mem_nil),
    dif_pos (show (1 : Fin 2) ∈ (plainDims a k b wf).rhsNonContracting from List.mem_singleton.mpr rfl)]
  rfl

/-- The contraction sum of a plain product at `(p, q)`, as a sum over `j < k`. -/
theorem contr_sum_plainDims (lhs : (⟨2, ![a, k]⟩ : Shape).Idx → EReal) (rhs : (⟨2, ![k, b]⟩ : Shape).Idx → EReal)
    (p : Fin a) (q : Fin b) :
    (∑ c : (plainDims a k b wf).contr.Idx,
        lhs ((plainDims a k b wf).lhsIdx (ix2 p q) c) * rhs ((plainDims a k b wf).rhsIdx (ix2 p q) c))
      = ∑ j : Fin k, lhs (ix2 p j) * rhs (ix2 j q) := by
  rw [← Equiv.sum_comp (contrEquiv1 (plainDims a k b wf) k rfl rfl).symm]
  refine Finset.sum_congr rfl fun j _ => ?_
  have hk := contrEquiv1_symm_val (plainDims a k b wf) k rfl rfl j
  have el : (plainDims a k b wf).lhsIdx (ix2 p q) ((contrEquiv1 (plainDims a k b wf) k rfl rfl).symm j) = ix2 p j :=
    funext fun ax => Fin.ext (by
      match ax with
      | ⟨0, _⟩ => exact lhs_row wf _ _
      | ⟨1, _⟩ => exact (lhs_col wf _ _).trans hk)
  have er : (plainDims a k b wf).rhsIdx (ix2 p q) ((contrEquiv1 (plainDims a k b wf) k rfl rfl).symm j) = ix2 j q :=
    funext fun ax => Fin.ext (by
      match ax with
      | ⟨0, _⟩ => exact (rhs_row wf _ _).trans hk
      | ⟨1, _⟩ => exact rhs_col wf _ _)
  rw [el, er]

end

/-- THE PRODUCT INTO A ZERO ACCUMULATOR AT `(p, q)`, for any record with the plain dimension numbers: the sum over
    `j < k` of `lhs (p, j) · rhs (j, q)`. -/
theorem matmul_zero_apply {a k b : ℕ} {φ₁ φ₂ : FTy} (d : DotDims ⟨2, ![a, k]⟩ ⟨2, ![k, b]⟩ ⟨2, ![a, b]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (lhs : FVec Ideal ⟨2, ![a, k]⟩ φ₁) (rhs : FVec Ideal ⟨2, ![k, b]⟩ φ₂)
    (p : Fin a) (q : Fin b) :
    FloatOps.matmul d prec lhs rhs (constant ⟨2, ![a, b]⟩ .f32 0x00000000#32) (ix2 p q)
      = ∑ j : Fin k, lhs (ix2 p j) * rhs (ix2 j q) := by
  obtain ⟨lc, rc, ln, rn, lb, rb, wf⟩ := d
  simp only at h1 h2 h3 h4 h5 h6
  subst h1 h2 h3 h4 h5 h6
  rw [Ideal.matmul_constant_zero_apply]
  exact contr_sum_plainDims wf lhs rhs p q

/-- The host's contraction at the same dimension numbers, at `(p, q)`: the same sum. -/
theorem dotGeneral_apply {a k b : ℕ} {φ₁ φ₂ : FTy} (d : DotDims ⟨2, ![a, k]⟩ ⟨2, ![k, b]⟩ ⟨2, ![a, b]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (sched : HostSchedule) (lhs : FVec Ideal ⟨2, ![a, k]⟩ φ₁)
    (rhs : FVec Ideal ⟨2, ![k, b]⟩ φ₂) (p : Fin a) (q : Fin b) :
    FloatOps.dotGeneral d prec sched lhs rhs (ix2 p q) = ∑ j : Fin k, lhs (ix2 p j) * rhs (ix2 j q) := by
  obtain ⟨lc, rc, ln, rn, lb, rb, wf⟩ := d
  simp only at h1 h2 h3 h4 h5 h6
  subst h1 h2 h3 h4 h5 h6
  rw [Ideal.dotGeneral_apply]
  exact contr_sum_plainDims wf lhs rhs p q

end Cert.Lib.PlainMatmul
-- ==== Proof.RegionEdge.lean ====
/-
  The first launch (100 tiles of 6400 edges) as one function of its operand arrays.
-/
import proofs.«419142_j5557687681588_3_alg».proof.Proof.Gen.KernelIdeal.Frame
import proofs.«419142_j5557687681588_3_alg».proof.Proof.MPSpec
import proofs.«419142_j5557687681588_3_alg».proof.Proof.LibPlainMatmul
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws

set_option maxRecDepth 16384

noncomputable section

namespace Cert.KernelIdeal.EdgeRegion

open Cert.KernelIdeal Cert.KernelIdeal.Gen
open Idealize.ShloMosaic Idealize.ShloMosaic.TcCoe Idealize.ShloMosaic.ValueIdx Idealize.SL.Sem
open Idealize.ShloMosaic.Pipeline (Dat Cfg Window)
open scoped BigOperators

variable (V : (c : Dev nD) → (b : Ref sig .tc) → Buf (Elt Ideal) ((c : Thread nD τ).loc b))

/-- The zero offsets of a whole-buffer access, as the constant function. -/
theorem zero_offsets : (![0, 0] : Fin 2 → Nat) = fun _ => 0 := funext fun a => by fin_cases a <;> rfl

/-! ## One tile's arithmetic -/

/-- The tile's arithmetic at row `p`, column `h`: two 128-term contractions into zero accumulators, added. -/
theorem tile_apply (x0 x1 : Vec Ideal S6400x128 .f32) (x2 x3 : Vec Ideal S128x128 .f32) (p : Fin 6400) (h : Fin 128) :
    k0_pay1 (F := Ideal) x0 x1 x2 x3 (ix2 p h)
      = (∑ k : Fin 128, x0 (ix2 p k) * x2 (ix2 k h)) + (∑ k : Fin 128, x1 (ix2 p k) * x3 (ix2 k h)) := by
  unfold k0_pay1
  simp only [shapeCast_self]
  refine (addf_apply _ _ _).trans ?_
  exact congrArg₂ (· + ·)
    (Cert.Lib.PlainMatmul.matmul_zero_apply dot_S6400x128_S128x128_S6400x128_1_0_0_1_n_n rfl rfl rfl rfl rfl rfl none x0 x2 p h)
    (Cert.Lib.PlainMatmul.matmul_zero_apply dot_S6400x128_S128x128_S6400x128_1_0_0_1_n_n rfl rfl rfl rfl rfl rfl none x1 x3 p h)

/-! ## Where each window's block sits, over the 100 tiles -/

/-- The block index maps, decided over the grid: at tile `t` the two edge-row windows and the output window sit at
    block `(t, 0)`; the two weight windows at block `(0, 0)`. -/
theorem tile_index : ∀ t : Fin cfg0.N,
    win0_4.index t (0 : Fin 2) = t.val ∧ win0_4.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- There are 100 tiles. -/
theorem tile_lt (t : Fin cfg0.N) : t.val < 100 := lt_of_lt_of_eq t.isLt N_0

/-- The edge that row `p` of tile `t` is: `6400 t + p`. -/
def edgeOf (t : Fin cfg0.N) (p : Fin 6400) : Fin 640000 :=
  ⟨t.val * 6400 + p.val, by have := tile_lt t; have := p.isLt; omega⟩

/-- Row `p` of the gathered-source window's block at tile `t` is row `6400 t + p` of its array. -/
theorem src_block_apply (c : Dev nD) (t : Fin cfg0.N) (p : Fin 6400) (k : Fin 128) :
    (iblk0 V c 0 t : Vec Ideal S6400x128 .f32) (ix2 p k) = (V c main_v9 : S640000x128.Idx → EReal) (ix2 (edgeOf t p) k) := by
  obtain ⟨-, -, e0, e1, -⟩ := tile_index t
  unfold iblk0
  rw [View.read_apply]
  show V c main_v9 _ = V c main_v9 _
  refine congrArg (V c main_v9) ?_
  funext a; apply Fin.ext
  match a with
  | ⟨0, _⟩ => show win0_0.index t (0 : Fin 2) * 6400 + 1 * p.val = t.val * 6400 + p.val; omega
  | ⟨1, _⟩ => show win0_0.index t (1 : Fin 2) * 128 + 1 * k.val = k.val; omega

/-- Row `p` of the edge-feature window's block at tile `t` is row `6400 t + p` of its array. -/
theorem feat_block_apply (c : Dev nD) (t : Fin cfg0.N) (p : Fin 6400) (k : Fin 128) :
    (iblk0 V c 1 t : Vec Ideal S6400x128 .f32) (ix2 p k) = (V c main_arg2 : S640000x128.Idx → EReal) (ix2 (edgeOf t p) k) := by
  obtain ⟨-, -, -, -, e0, e1, -⟩ := tile_index t
  unfold iblk0
  rw [View.read_apply]
  show V c main_arg2 _ = V c main_arg2 _
  refine congrArg (V c main_arg2) ?_
  funext a; apply Fin.ext
  match a with
  | ⟨0, _⟩ => show win0_1.index t (0 : Fin 2) * 6400 + 1 * p.val = t.val * 6400 + p.val; omega
  | ⟨1, _⟩ => show win0_1.index t (1 : Fin 2) * 128 + 1 * k.val = k.val; omega

/-- The first weight window's block is its whole array, at every tile. -/
theorem wa_block_apply (c : Dev nD) (t : Fin cfg0.N) (k h : Fin 128) :
    (iblk0 V c 2 t : Vec Ideal S128x128 .f32) (ix2 k h) = (V c main_v4 : S128x128.Idx → EReal) (ix2 k h) := by
  obtain ⟨-, -, -, -, -, -, e0, e1, -⟩ := tile_index t
  unfold iblk0
  rw [View.read_apply]
  show V c main_v4 _ = V c main_v4 _
  refine congrArg (V c main_v4) ?_
  funext a; apply Fin.ext
  match a with
  | ⟨0, _⟩ => show win0_2.index t (0 : Fin 2) * 128 + 1 * k.val = k.val; omega
  | ⟨1, _⟩ => show win0_2.index t (1 : Fin 2) * 128 + 1 * h.val = h.val; omega

/-- The second weight window's block is its whole array, at every tile. -/
theorem wc_block_apply (c : Dev nD) (t : Fin cfg0.N) (k h : Fin 128) :
    (iblk0 V c 3 t : Vec Ideal S128x128 .f32) (ix2 k h) = (V c main_v6 : S128x128.Idx → EReal) (ix2 k h) := by
  obtain ⟨-, -, -, -, -, -, -, -, e0, e1⟩ := tile_index t
  unfold iblk0
  rw [View.read_apply]
  show V c main_v6 _ = V c main_v6 _
  refine congrArg (V c main_v6) ?_
  funext a; apply Fin.ext
  match a with
  | ⟨0, _⟩ => show win0_3.index t (0 : Fin 2) * 128 + 1 * k.val = k.val; omega
  | ⟨1, _⟩ => show win0_3.index t (1 : Fin 2) * 128 + 1 * h.val = h.val; omega

/-- Position `(p, h)` of the output window's block at tile `t` is position `(6400 t + p, h)` of the output array. -/
theorem out_block_emb (t : Fin cfg0.N) (p : Fin 6400) (h : Fin 128) :
    ((cfg0.win 4).blk t).view.emb (ix2 p h) = (ix2 (edgeOf t p) h : S640000x128.Idx) := by
  obtain ⟨e0, e1, -⟩ := tile_index t
  funext a; apply Fin.ext
  match a with
  | ⟨0, _⟩ => show win0_4.index t (0 : Fin 2) * 6400 + 1 * p.val = t.val * 6400 + p.val; omega
  | ⟨1, _⟩ => show win0_4.index t (1 : Fin 2) * 128 + 1 * h.val = h.val; omega

/-! ## What a tile writes back -/

/-- WHAT TILE `t` WRITES BACK is its block of the two contractions, added, of the operand arrays as the launch finds
    them. -/
theorem flushed_tile (c : Dev nD) (t : Fin cfg0.N) :
    (dat0 (F := Ideal) V c).flushed 4 t
      = ((cfg0.win 4).blk t).view.read (Elt Ideal)
          (Cert.MP.edgeMix (V c main_v9) (V c main_arg2) (V c main_v4) (V c main_v6)) := by
  show (cfg0.win 4).cut (grid0.coords t) ((dat0 V c).after 4 t) = _
  rw [after0_4]
  unfold out0_4
  rw [View.canon_unit_zero zero_offsets]
  simp only [View.ld_unit_zero (S := S6400x128) zero_offsets, View.ld_unit_zero (S := S128x128) zero_offsets]
  funext j
  obtain ⟨p, h, rfl⟩ : ∃ (p : Fin 6400) (h : Fin 128), j = ix2 p h := ⟨j 0, j 1, eq_ix2 j⟩
  rw [View.read_apply, out_block_emb t p h, Cert.MP.edgeMix_apply]
  refine (tile_apply _ _ _ _ p h).trans ?_
  refine congrArg₂ (· + ·) (Finset.sum_congr rfl fun k _ => ?_) (Finset.sum_congr rfl fun k _ => ?_)
  · exact congrArg₂ (· * ·) (src_block_apply V c t p k) (wa_block_apply V c t k h)
  · exact congrArg₂ (· * ·) (feat_block_apply V c t p k) (wc_block_apply V c t k h)

/-! ## The tiles fill the output array -/

/-- A position of the output array is in tile `t`'s block iff each coordinate is in the block's range on its axis. -/
theorem mem_tile (t : Fin cfg0.N) (i : S640000x128.Idx) :
    i ∈ ((cfg0.win 4).blk t).view.set
      ↔ ∀ a : Fin 2, win0_4.index t a * S6400x128.size a ≤ (i a).val
          ∧ (i a).val < win0_4.index t a * S6400x128.size a + S6400x128.size a := by
  show i ∈ ((View.whole main_v10).slice (win0_4.rect t)).set ↔ _
  rw [View.set_slice_whole, Rect.mem_set_unit]
  exact Iff.rfl

/-- Row `e` of the output array lies in the block of tile `e / 6400`, which is written back. -/
theorem tiles_cover (i : S640000x128.Idx) :
    ∃ t : Fin cfg0.N, (cfg0.win 4).flush t = true ∧ i ∈ ((cfg0.win 4).blk t).view.set := by
  have hi0 : (i 0).val < 640000 := (i 0).isLt
  have hi1 : (i 1).val < 128 := (i 1).isLt
  obtain ⟨t, ht⟩ : ∃ t : Fin cfg0.N, t.val = (i 0).val / 6400 :=
    ⟨⟨(i 0).val / 6400, by rw [show cfg0.N = 100 from N_0]; omega⟩, rfl⟩
  obtain ⟨e0, e1, -⟩ := tile_index t
  refine ⟨t, flush0_4 t, ?_⟩
  rw [mem_tile]
  intro a
  match a with
  | ⟨0, _⟩ =>
    show win0_4.index t (0 : Fin 2) * 6400 ≤ (i 0).val ∧ (i 0).val < win0_4.index t (0 : Fin 2) * 6400 + 6400
    omega
  | ⟨1, _⟩ =>
    show win0_4.index t (1 : Fin 2) * 128 ≤ (i 1).val ∧ (i 1).val < win0_4.index t (1 : Fin 2) * 128 + 128
    omega

/-! ## The output array after the launch -/

/-- After the first launch its output array holds, at `(e, h)`, the two contractions of edge `e`'s gathered source
    row and of its own features against the two 128-row blocks, added. -/
theorem final (c : Dev nD) :
    (dat0 (F := Ideal) V c).arrAt 4 cfg0.N
      = Cert.MP.edgeMix (V c main_v9) (V c main_arg2) (V c main_v4) (V c main_v6) :=
  (dat0 (F := Ideal) V c).arrAt_eq_of_cover 4 _ (fun t _ => flushed_tile V c t) tiles_cover

end Cert.KernelIdeal.EdgeRegion

end
-- ==== Proof.LibColumn.lean ====
/-
  Column vectors read at an index: a rank-1 array of `a` entries seen as an [a, 1] column, and an [a, 1] column
  broadcast across `b` columns. The library reads the ROW forms ([a] as [1, a]; [1, b] over [a, b]) by coordinates;
  these are the transposed cases, in the same style: the reshape by equating row-major positions, the broadcast by
  giving, per axis of the operand, the coordinate it is read at (0 on its unit axis).
-/
import Idealize.ShloMosaic.Lib.Pipeline.Value
import Idealize.ShloMosaic.Lib.ValueIdx

namespace Cert.Lib.Column

open Idealize.ShloMosaic Idealize.ShloMosaic.ValueIdx

variable {α : Type}

/-- A rank-1 array of `a` entries cast to an [a, 1] column reads, at `(i, u)`, the operand at `i`, whatever the unit
    coordinate `u`: entry `(i, u)` of the column sits at row-major position `i · 1 + u = i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column broadcast to [a, b] reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Column
-- ==== Proof.RegionNode.lean ====
/-
  The second launch (2 tiles of 5000 nodes) as one function of its operand arrays.

  Each tile stores one whole block of the result. Its arithmetic, read at one element, is the output layer applied to
  the row's rebuilt aggregate followed by the row's own features (`tile_apply`); the three tiled operands' blocks at
  tile `t` are rows `t · 5000 …` of their arrays and the four small operands are staged whole, so the block a tile
  writes back is that block of the second stage's result on the whole arrays (`tile_flushed`); the two blocks tile the
  result array (`tiles_cover`), which therefore ends holding that result everywhere (`final`).
-/
import proofs.«419142_j5557687681588_3_alg».proof.Proof.Gen.KernelIdeal.Frame
import proofs.«419142_j5557687681588_3_alg».proof.Proof.MPSpec
import proofs.«419142_j5557687681588_3_alg».proof.Proof.LibPlainMatmul
import proofs.«419142_j5557687681588_3_alg».proof.Proof.LibColumn
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws

set_option maxRecDepth 16384

noncomputable section

namespace Cert.KernelIdeal.NodeRegion

open Cert.KernelIdeal Cert.KernelIdeal.Gen
open Idealize.ShloMosaic Idealize.ShloMosaic.TcCoe Idealize.ShloMosaic.ValueIdx Idealize.SL.Sem
open Idealize.ShloMosaic.Pipeline (Dat Cfg Window)
open scoped BigOperators

/-- THE BODY'S ARITHMETIC AT ONE ELEMENT of a tile of 5000 nodes, over any seven blocks: at row `p`, column `o` the
    output layer `w2`, `b2r` applied to the 256 entries made of the rebuilt aggregate of row `p` (the received share,
    plus the row's count times the middle block `wb` on the row's own features and the bias) followed by the row's own
    128 features. The two products contract a row against a column; the two bias rows are read at their column and the
    count column at its row; the concatenation along the columns is read in its first piece below column 128 and in its
    second piece, 128 columns back, from there on. -/
theorem tile_apply (xb : Vec Ideal S5000x128 .f32) (wb : Vec Ideal S128x128 .f32) (ab : Vec Ideal S5000x128 .f32)
    (db : Vec Ideal S5000x1 .f32) (b1r : Vec Ideal S1x128 .f32) (w2 : Vec Ideal S256x128 .f32)
    (b2r : Vec Ideal S1x128 .f32) (p : Fin 5000) (o : Fin 128) :
    k1_pay1 (F := Ideal) xb wb ab db b1r w2 b2r (ix2 p o)
      = (∑ k : Fin 256, (if h : k.val < 128 then
            (ab (ix2 p ⟨k.val, h⟩) + db (ix2 p 0) * ((∑ j : Fin 128, xb (ix2 p j) * wb (ix2 j ⟨k.val, h⟩)) + b1r (ix2 0 ⟨k.val, h⟩)))
          else xb (ix2 p ⟨k.val - 128, by omega⟩)) * w2 (ix2 k o)) + b2r (ix2 0 o) := by
  unfold k1_pay1
  refine (addf_apply _ _ _).trans (congrArg₂ (fun a b : EReal => a + b) ?_ ?_)
  · refine (Cert.Lib.PlainMatmul.matmul_zero_apply _ rfl rfl rfl rfl rfl rfl none _ w2 p o).trans ?_
    refine Finset.sum_congr rfl fun k _ => congrArg (fun a : EReal => a * w2 (ix2 k o)) ?_
    by_cases h : k.val < 128
    · rw [dif_pos h]
      refine (concatenate_pair_apply_left (t := S5000x256) (s₁ := S5000x128) (s₂ := S5000x128) (1 : Fin 2) _ _ _
        (ix2 p k) rfl (ix2 p ⟨k.val, h⟩) (fun b => ?_)).trans ?_
      · match b with
        | ⟨0, _⟩ => rfl
        | ⟨1, _⟩ => rfl
      · refine (addf_apply _ _ _).trans (congrArg₂ (fun a b : EReal => a + b) (congrFun (shapeCast_self ab _) _) ?_)
        refine (mulf_apply _ _ _).trans (congrArg₂ (fun a b : EReal => a * b) ?_ ?_)
        · exact (Cert.Lib.Column.broadcastTo_a1_ab_apply _ _ p ⟨k.val, h⟩).trans (congrFun (shapeCast_self db _) _)
        · refine (addf_apply _ _ _).trans (congrArg₂ (fun a b : EReal => a + b) ?_ ?_)
          · refine (Cert.Lib.PlainMatmul.matmul_zero_apply _ rfl rfl rfl rfl rfl rfl none xb _ p ⟨k.val, h⟩).trans ?_
            rw [shapeCast_self]
          · exact (broadcastTo_1b_ab_apply _ _ p ⟨k.val, h⟩).trans (congrFun (shapeCast_self b1r _) _)
    · rw [dif_neg h]
      refine concatenate_pair_apply_right (t := S5000x256) (s₁ := S5000x128) (s₂ := S5000x128) (1 : Fin 2) _ _ _
        (ix2 p k) rfl rfl (ix2 p ⟨k.val - 128, by omega⟩) (fun b hb => ?_) ?_
      · match b with
        | ⟨0, _⟩ => rfl
        | ⟨1, _⟩ => exact absurd rfl hb
      · show k.val - 128 + 128 = k.val
        omega
  · exact (broadcastTo_1b_ab_apply _ _ p o).trans (congrFun (shapeCast_self b2r _) _)

/-- The same element against the whole arrays: when row `p` of the three tiled blocks is row `n` of the node table,
    of the received shares and of the count column, and the four untiled blocks are their whole arrays, the body's
    result at `(p, o)` is the second stage's at `(n, o)`. -/
theorem tile_eq_nodeOut (agg x : Cert.MP.Mat 10000 128) (deg : Cert.MP.Mat 10000 1) (wb : Cert.MP.Mat 128 128)
    (b1r : Cert.MP.Mat 1 128) (w2 : Cert.MP.Mat 256 128) (b2r : Cert.MP.Mat 1 128)
    (xb ab : Vec Ideal S5000x128 .f32) (db : Vec Ideal S5000x1 .f32) (wbb : Vec Ideal S128x128 .f32)
    (b1b : Vec Ideal S1x128 .f32) (w2b : Vec Ideal S256x128 .f32) (b2b : Vec Ideal S1x128 .f32)
    (n : Fin 10000) (p : Fin 5000)
    (hx : ∀ q : Fin 128, xb (ix2 p q) = x (ix2 n q)) (ha : ∀ q : Fin 128, ab (ix2 p q) = agg (ix2 n q))
    (hd : db (ix2 p 0) = deg (ix2 n 0)) (hwb : wbb = wb) (hb1 : b1b = b1r) (hw2 : w2b = w2) (hb2 : b2b = b2r)
    (o : Fin 128) :
    k1_pay1 (F := Ideal) xb wbb ab db b1b w2b b2b (ix2 p o) = Cert.MP.nodeOut agg x deg wb b1r w2 b2r (ix2 n o) := by
  subst hwb hb1 hw2 hb2
  rw [tile_apply, Cert.MP.nodeOut_apply]
  refine congrArg (fun s : EReal => s + b2b (ix2 0 o))
    (Finset.sum_congr rfl fun k _ => congrArg (fun a : EReal => a * w2b (ix2 k o)) ?_)
  unfold Cert.MP.catAt Cert.MP.nodeHid
  by_cases h : k.val < 128
  · rw [dif_pos h, dif_pos h, ha, hd]
    simp only [hx]
  · rw [dif_neg h, dif_neg h, hx]

variable (V : (c : Dev nD) → (b : Ref sig .tc) → Buf (Elt Ideal) ((c : Thread nD τ).loc b))

/-- The zero offsets of a whole-buffer access, as the constant function. -/
theorem zero_offsets : (![0, 0] : Fin 2 → Nat) = fun _ => 0 := funext fun a => by fin_cases a <;> rfl

/-- The printed index maps over the two tiles, decided once: the three tiled operands and the result take row block
    `t` at tile `t`, column block `0`; the two weight matrices and the two bias rows are taken whole, block `(0, 0)`, at
    both tiles. -/
theorem tile_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- Row `p` of tile `t`'s block of the received shares is row `t · 5000 + p` of their array: a block's coordinate is its block index times the block's extent plus the coordinate inside the block. -/
theorem agg_block (c : Dev nD) (t : Fin cfg1.N) (p : Fin 5000) (q : Fin 128) (n : Fin 10000)
    (hn : n.val = t.val * 5000 + p.val) :
    (iblk1 V c 0 t : Vec Ideal S5000x128 .f32) (ix2 p q) = (V c main_v13 : Cert.MP.Mat 10000 128) (ix2 n q) := by
  have e0 : win1_0.index t (0 : Fin 2) = t.val := (tile_index t).1
  have e1 : win1_0.index t (1 : Fin 2) = 0 := (tile_index t).2.1
  show V c main_v13 (((cfg1.win 0).blk t).view.emb (ix2 p q)) = V c main_v13 (ix2 n q)
  refine congrArg (V c main_v13 : Cert.MP.Mat 10000 128) (funext fun a => Fin.ext ?_)
  match a with
  | ⟨0, _⟩ => show win1_0.index t (0 : Fin 2) * 5000 + 1 * p.val = n.val; omega
  | ⟨1, _⟩ => show win1_0.index t (1 : Fin 2) * 128 + 1 * q.val = q.val; omega

/-- Row `p` of tile `t`'s block of the node table is row `t · 5000 + p` of the table. -/
theorem x_block (c : Dev nD) (t : Fin cfg1.N) (p : Fin 5000) (q : Fin 128) (n : Fin 10000)
    (hn : n.val = t.val * 5000 + p.val) :
    (iblk1 V c 1 t : Vec Ideal S5000x128 .f32) (ix2 p q) = (V c main_arg0 : Cert.MP.Mat 10000 128) (ix2 n q) := by
  have e0 : win1_1.index t (0 : Fin 2) = t.val := (tile_index t).2.2.1
  have e1 : win1_1.index t (1 : Fin 2) = 0 := (tile_index t).2.2.2.1
  show V c main_arg0 (((cfg1.win 1).blk t).view.emb (ix2 p q)) = V c main_arg0 (ix2 n q)
  refine congrArg (V c main_arg0 : Cert.MP.Mat 10000 128) (funext fun a => Fin.ext ?_)
  match a with
  | ⟨0, _⟩ => show win1_1.index t (0 : Fin 2) * 5000 + 1 * p.val = n.val; omega
  | ⟨1, _⟩ => show win1_1.index t (1 : Fin 2) * 128 + 1 * q.val = q.val; omega

/-- Row `p` of tile `t`'s block of the count column is row `t · 5000 + p` of the column. -/
theorem deg_block (c : Dev nD) (t : Fin cfg1.N) (p : Fin 5000) (q : Fin 1) (n : Fin 10000)
    (hn : n.val = t.val * 5000 + p.val) :
    (iblk1 V c 2 t : Vec Ideal S5000x1 .f32) (ix2 p q) = (V c main_v18 : Cert.MP.Mat 10000 1) (ix2 n q) := by
  have e0 : win1_2.index t (0 : Fin 2) = t.val := (tile_index t).2.2.2.2.1
  have e1 : win1_2.index t (1 : Fin 2) = 0 := (tile_index t).2.2.2.2.2.1
  show V c main_v18 (((cfg1.win 2).blk t).view.emb (ix2 p q)) = V c main_v18 (ix2 n q)
  refine congrArg (V c main_v18 : Cert.MP.Mat 10000 1) (funext fun a => Fin.ext ?_)
  match a with
  | ⟨0, _⟩ => show win1_2.index t (0 : Fin 2) * 5000 + 1 * p.val = n.val; omega
  | ⟨1, _⟩ => show win1_2.index t (1 : Fin 2) * 1 + 1 * q.val = q.val; omega

/-- The middle block of the first layer's weights is staged whole at both tiles. -/
theorem wb_block (c : Dev nD) (t : Fin cfg1.N) :
    (iblk1 V c 3 t : Vec Ideal S128x128 .f32) = (V c main_v5 : Cert.MP.Mat 128 128) := by
  have e0 : win1_3.index t (0 : Fin 2) = 0 := (tile_index t).2.2.2.2.2.2.1
  have e1 : win1_3.index t (1 : Fin 2) = 0 := (tile_index t).2.2.2.2.2.2.2.1
  funext y
  show V c main_v5 (((cfg1.win 3).blk t).view.emb y) = V c main_v5 y
  refine congrArg (V c main_v5 : Cert.MP.Mat 128 128) (funext fun a => Fin.ext ?_)
  match a with
  | ⟨0, _⟩ => show win1_3.index t (0 : Fin 2) * 128 + 1 * (y 0).val = (y 0).val; omega
  | ⟨1, _⟩ => show win1_3.index t (1 : Fin 2) * 128 + 1 * (y 1).val = (y 1).val; omega

/-- The first layer's bias row is staged whole at both tiles. -/
theorem b1_block (c : Dev nD) (t : Fin cfg1.N) :
    (iblk1 V c 4 t : Vec Ideal S1x128 .f32) = (V c main_v7 : Cert.MP.Mat 1 128) := by
  have e0 : win1_4.index t (0 : Fin 2) = 0 := (tile_index t).2.2.2.2.2.2.2.2.1
  have e1 : win1_4.index t (1 : Fin 2) = 0 := (tile_index t).2.2.2.2.2.2.2.2.2.1
  funext y
  show V c main_v7 (((cfg1.win 4).blk t).view.emb y) = V c main_v7 y
  refine congrArg (V c main_v7 : Cert.MP.Mat 1 128) (funext fun a => Fin.ext ?_)
  match a with
  | ⟨0, _⟩ => show win1_4.index t (0 : Fin 2) * 1 + 1 * (y 0).val = (y 0).val; omega
  | ⟨1, _⟩ => show win1_4.index t (1 : Fin 2) * 128 + 1 * (y 1).val = (y 1).val; omega

/-- The output layer's weights are staged whole at both tiles. -/
theorem w2_block (c : Dev nD) (t : Fin cfg1.N) :
    (iblk1 V c 5 t : Vec Ideal S256x128 .f32) = (V c main_arg5 : Cert.MP.Mat 256 128) := by
  have e0 : win1_5.index t (0 : Fin 2) = 0 := (tile_index t).2.2.2.2.2.2.2.2.2.2.1
  have e1 : win1_5.index t (1 : Fin 2) = 0 := (tile_index t).2.2.2.2.2.2.2.2.2.2.2.1
  funext y
  show V c main_arg5 (((cfg1.win 5).blk t).view.emb y) = V c main_arg5 y
  refine congrArg (V c main_arg5 : Cert.MP.Mat 256 128) (funext fun a => Fin.ext ?_)
  match a with
  | ⟨0, _⟩ => show win1_5.index t (0 : Fin 2) * 256 + 1 * (y 0).val = (y 0).val; omega
  | ⟨1, _⟩ => show win1_5.index t (1 : Fin 2) * 128 + 1 * (y 1).val = (y 1).val; omega

/-- The output layer's bias row is staged whole at both tiles. -/
theorem b2_block (c : Dev nD) (t : Fin cfg1.N) :
    (iblk1 V c 6 t : Vec Ideal S1x128 .f32) = (V c main_v8 : Cert.MP.Mat 1 128) := by
  have e0 : win1_6.index t (0 : Fin 2) = 0 := (tile_index t).2.2.2.2.2.2.2.2.2.2.2.2.1
  have e1 : win1_6.index t (1 : Fin 2) = 0 := (tile_index t).2.2.2.2.2.2.2.2.2.2.2.2.2.1
  funext y
  show V c main_v8 (((cfg1.win 6).blk t).view.emb y) = V c main_v8 y
  refine congrArg (V c main_v8 : Cert.MP.Mat 1 128) (funext fun a => Fin.ext ?_)
  match a with
  | ⟨0, _⟩ => show win1_6.index t (0 : Fin 2) * 1 + 1 * (y 0).val = (y 0).val; omega
  | ⟨1, _⟩ => show win1_6.index t (1 : Fin 2) * 128 + 1 * (y 1).val = (y 1).val; omega

/-- WHAT TILE `t` WRITES BACK is block `t` of the second stage's result on the whole arrays as the launch finds them:
    the body stores one whole block, its arithmetic at `(p, o)` is the second stage's at row `t · 5000 + p`, and that
    is the row of the result's block `t` that `p` names. -/
theorem tile_flushed (c : Dev nD) (t : Fin cfg1.N) :
    (dat1 (F := Ideal) V c).flushed 7 t = ((cfg1.win 7).blk t).view.read (Elt Ideal) (Cert.MP.nodeOut (V c main_v13) (V c main_arg0) (V c main_v18) (V c main_v5) (V c main_v7) (V c main_arg5) (V c main_v8)) := by
  show (cfg1.win 7).cut (grid1.coords t) ((dat1 V c).after 7 t) = _
  rw [after1_7]
  unfold out1_7
  rw [View.canon_unit_zero zero_offsets]
  simp only [View.ld_unit_zero (S := S5000x128) zero_offsets, View.ld_unit_zero (S := S128x128) zero_offsets,
    View.ld_unit_zero (S := S5000x1) zero_offsets, View.ld_unit_zero (S := S1x128) zero_offsets,
    View.ld_unit_zero (S := S256x128) zero_offsets]
  have hN : t.val < 2 := lt_of_lt_of_eq t.isLt N_1
  have e0 : win1_7.index t (0 : Fin 2) = t.val := (tile_index t).2.2.2.2.2.2.2.2.2.2.2.2.2.2.1
  have e1 : win1_7.index t (1 : Fin 2) = 0 := (tile_index t).2.2.2.2.2.2.2.2.2.2.2.2.2.2.2
  funext j
  obtain ⟨p, o, rfl⟩ : ∃ (p : Fin 5000) (o : Fin 128), j = ix2 p o := ⟨j 0, j 1, eq_ix2 j⟩
  have hn : t.val * 5000 + p.val < 10000 := by have := p.isLt; omega
  refine (tile_eq_nodeOut (V c main_v13) (V c main_arg0) (V c main_v18) (V c main_v5) (V c main_v7) (V c main_arg5)
    (V c main_v8) (iblk1 V c 1 t) (iblk1 V c 0 t) (iblk1 V c 2 t) (iblk1 V c 3 t) (iblk1 V c 4 t) (iblk1 V c 5 t)
    (iblk1 V c 6 t) ⟨t.val * 5000 + p.val, hn⟩ p (fun q => x_block V c t p q _ rfl) (fun q => agg_block V c t p q _ rfl)
    (deg_block V c t p 0 _ rfl) (wb_block V c t) (b1_block V c t) (w2_block V c t) (b2_block V c t) o).trans ?_
  show (Cert.MP.nodeOut (V c main_v13) (V c main_arg0) (V c main_v18) (V c main_v5) (V c main_v7) (V c main_arg5) (V c main_v8)) (ix2 ⟨t.val * 5000 + p.val, hn⟩ o) = (Cert.MP.nodeOut (V c main_v13) (V c main_arg0) (V c main_v18) (V c main_v5) (V c main_v7) (V c main_arg5) (V c main_v8)) (((cfg1.win 7).blk t).view.emb (ix2 p o))
  refine congrArg (Cert.MP.nodeOut (V c main_v13) (V c main_arg0) (V c main_v18) (V c main_v5) (V c main_v7) (V c main_arg5) (V c main_v8)) (funext fun a => Fin.ext ?_)
  match a with
  | ⟨0, _⟩ => show t.val * 5000 + p.val = win1_7.index t (0 : Fin 2) * 5000 + 1 * p.val; omega
  | ⟨1, _⟩ => show o.val = win1_7.index t (1 : Fin 2) * 128 + 1 * o.val; omega

/-- An index of the result array is in tile `t`'s block iff each coordinate is in the block's range on its axis. -/
theorem mem_tile (t : Fin cfg1.N) (i : S10000x128.Idx) :
    i ∈ ((cfg1.win 7).blk t).view.set ↔ ∀ a : Fin 2, win1_7.index t a * S5000x128.size a ≤ (i a).val
      ∧ (i a).val < win1_7.index t a * S5000x128.size a + S5000x128.size a := by
  show i ∈ ((View.whole main_v19).slice (win1_7.rect t)).set ↔ _
  rw [View.set_slice_whole, Rect.mem_set_unit]
  exact Iff.rfl

/-- The two tiles cover the result: row `r` lies in the block of tile `r / 5000`, which is written back. -/
theorem tiles_cover (i : S10000x128.Idx) :
    ∃ t : Fin cfg1.N, (cfg1.win 7).flush t = true ∧ i ∈ ((cfg1.win 7).blk t).view.set := by
  have hi0 : (i 0).val < 10000 := (i 0).isLt
  have hi1 : (i 1).val < 128 := (i 1).isLt
  have ht : (i 0).val / 5000 < cfg1.N := lt_of_lt_of_eq (by omega) N_1.symm
  have e0 : win1_7.index ⟨(i 0).val / 5000, ht⟩ (0 : Fin 2) = (i 0).val / 5000 := (tile_index ⟨(i 0).val / 5000, ht⟩).2.2.2.2.2.2.2.2.2.2.2.2.2.2.1
  have e1 : win1_7.index ⟨(i 0).val / 5000, ht⟩ (1 : Fin 2) = 0 := (tile_index ⟨(i 0).val / 5000, ht⟩).2.2.2.2.2.2.2.2.2.2.2.2.2.2.2
  refine ⟨⟨(i 0).val / 5000, ht⟩, flush1_7 _, ?_⟩
  rw [mem_tile]
  intro a
  match a with
  | ⟨0, _⟩ =>
    show win1_7.index ⟨(i 0).val / 5000, ht⟩ (0 : Fin 2) * 5000 ≤ (i 0).val
      ∧ (i 0).val < win1_7.index ⟨(i 0).val / 5000, ht⟩ (0 : Fin 2) * 5000 + 5000
    omega
  | ⟨1, _⟩ =>
    show win1_7.index ⟨(i 0).val / 5000, ht⟩ (1 : Fin 2) * 128 ≤ (i 1).val
      ∧ (i 1).val < win1_7.index ⟨(i 0).val / 5000, ht⟩ (1 : Fin 2) * 128 + 128
    omega

/-- After the second launch its output array holds the output layer of the rebuilt aggregate and the node table. -/
theorem final (c : Dev nD) :
    (dat1 (F := Ideal) V c).arrAt 7 cfg1.N
      = Cert.MP.nodeOut (V c main_v13) (V c main_arg0) (V c main_v18) (V c main_v5) (V c main_v7) (V c main_arg5)
          (V c main_v8) :=
  (dat1 V c).arrAt_eq_of_cover 7 (Cert.MP.nodeOut (V c main_v13) (V c main_arg0) (V c main_v18) (V c main_v5) (V c main_v7) (V c main_arg5) (V c main_v8)) (fun t _ => tile_flushed V c t) (fun i => tiles_cover i)

end Cert.KernelIdeal.NodeRegion

end
-- ==== Proof.HostFoldEntry.lean ====
/-
  The kernel program's run read back, first half: the buffer contents when the first launch is entered.

  @main is five segments: two stretches of host operations (the slices and reshapes of the arguments; the row gather),
  the first launch, a stretch of host operations (the two scatters that add), the second launch. The buffer contents at
  each boundary are a fold from the launch memory; a buffer is read back through the fold to the operations that last
  wrote it, a launch's output array to the whole-array function of its operand arrays.
-/
import proofs.«419142_j5557687681588_3_alg».proof.Proof.Gen.KernelIdeal.Frame
import proofs.«419142_j5557687681588_3_alg».proof.Proof.KernelStages
import Idealize.ShloMosaic.Lib.StableHlo.Run
import Idealize.ShloMosaic.PureOps.Ideal

set_option maxRecDepth 16384

noncomputable section

namespace Cert.KernelIdeal.Fold

open Cert.KernelIdeal Cert.KernelIdeal.Gen Cert.KernelIdeal.Stages
open Idealize.ShloMosaic Idealize.ShloMosaic.TcCoe Idealize.ShloMosaic.Tactic Idealize.SL.Sem Idealize.ShloMosaic.StableHlo

/-! ## The row gather's stretch, from any contents -/

set_option maxHeartbeats 4000000 in
/-- After the gather's 23 operations its result buffer holds the rows of the table buffer taken at the word buffer. -/
theorem take_stage (w : Valuation τ sig (Elt Ideal)) :
    StableHlo.after (hostOps0_1 (F := Ideal)) w (Proc.devRef .tc main_v9)
      = takeRows (w (Proc.devRef .tc main_arg0)) (w (Proc.devRef .tc main_v1)) := by
  dsimp only [hostOps0_1]
  after_results_simp
  simp only [TRef.ofBuf, TRef.toBuf, cast_eq]
  rfl

variable (m : (ℓ : Loc nD τ sig) → Buf (Elt Ideal) ℓ) (ρ : Dev nD → PrngReg)

/-! ## The first launch's entry contents -/

theorem w1_arg0 (c : Dev nD) : W1 (F := Ideal) m ρ c (Proc.devRef .tc main_arg0) = m ((c : Thread nD τ).loc main_arg0) := by
  dsimp only [W1, W0, hostOps0]
  after_results

theorem w1_src (c : Dev nD) : W1 (F := Ideal) m ρ c (Proc.devRef .tc main_v1) = srcW (m ((c : Thread nD τ).loc main_arg1)) := by
  dsimp only [W1, W0, hostOps0]
  after_results
  rfl

theorem w2_take (c : Dev nD) :
    W2 (F := Ideal) m ρ c (Proc.devRef .tc main_v9)
      = takeRows (m ((c : Thread nD τ).loc main_arg0)) (srcW (m ((c : Thread nD τ).loc main_arg1))) := by
  show StableHlo.after (hostOps0_1 (F := Ideal)) (W1 m ρ c) (Proc.devRef .tc main_v9) = _
  rw [take_stage, w1_arg0, w1_src]

theorem w2_arg2 (c : Dev nD) : W2 (F := Ideal) m ρ c (Proc.devRef .tc main_arg2) = m ((c : Thread nD τ).loc main_arg2) := by
  dsimp only [W2, W1, W0, hostOps0, hostOps0_1]
  after_results

theorem w2_w1a (c : Dev nD) : W2 (F := Ideal) m ρ c (Proc.devRef .tc main_v4) = w1a (m ((c : Thread nD τ).loc main_arg3)) := by
  dsimp only [W2, W1, W0, hostOps0, hostOps0_1]
  after_results
  rfl

theorem w2_w1c (c : Dev nD) : W2 (F := Ideal) m ρ c (Proc.devRef .tc main_v6) = w1c (m ((c : Thread nD τ).loc main_arg3)) := by
  dsimp only [W2, W1, W0, hostOps0, hostOps0_1]
  after_results
  rfl

theorem w2_w1b (c : Dev nD) : W2 (F := Ideal) m ρ c (Proc.devRef .tc main_v5) = w1b (m ((c : Thread nD τ).loc main_arg3)) := by
  dsimp only [W2, W1, W0, hostOps0, hostOps0_1]
  after_results
  rfl

theorem w2_dst (c : Dev nD) : W2 (F := Ideal) m ρ c (Proc.devRef .tc main_v3) = dstW (m ((c : Thread nD τ).loc main_arg1)) := by
  dsimp only [W2, W1, W0, hostOps0, hostOps0_1]
  after_results
  rfl

theorem w2_b1 (c : Dev nD) : W2 (F := Ideal) m ρ c (Proc.devRef .tc main_v7) = asRow (m ((c : Thread nD τ).loc main_arg4)) := by
  dsimp only [W2, W1, W0, hostOps0, hostOps0_1]
  after_results
  rfl

theorem w2_b2 (c : Dev nD) : W2 (F := Ideal) m ρ c (Proc.devRef .tc main_v8) = asRow (m ((c : Thread nD τ).loc main_arg6)) := by
  dsimp only [W2, W1, W0, hostOps0, hostOps0_1]
  after_results
  rfl

end Cert.KernelIdeal.Fold

end
-- ==== Proof.HostFold.lean ====
/-
  The kernel program's run read back: the contents of the result buffer at the end of the fold through @main.

  After the first launch its output array is the whole-array function of its operand arrays as it found them; the two
  scatters read that array and the target words; the second launch's output array is the whole-array function of its
  operand arrays; every other buffer passes through a launch and through a stretch that does not write it.
-/
import proofs.«419142_j5557687681588_3_alg».proof.Proof.Gen.KernelIdeal.Frame
import proofs.«419142_j5557687681588_3_alg».proof.Proof.KernelStages
import proofs.«419142_j5557687681588_3_alg».proof.Proof.RegionEdge
import proofs.«419142_j5557687681588_3_alg».proof.Proof.RegionNode
import proofs.«419142_j5557687681588_3_alg».proof.Proof.HostFoldEntry
import Idealize.ShloMosaic.Lib.StableHlo.Run
import Idealize.ShloMosaic.PureOps.Ideal

set_option maxRecDepth 16384

noncomputable section

namespace Cert.KernelIdeal.Fold

open Cert.KernelIdeal Cert.KernelIdeal.Gen Cert.KernelIdeal.Stages
open Idealize.ShloMosaic Idealize.ShloMosaic.TcCoe Idealize.ShloMosaic.Tactic Idealize.SL.Sem Idealize.ShloMosaic.StableHlo

variable (m : (ℓ : Loc nD τ sig) → Buf (Elt Ideal) ℓ) (ρ : Dev nD → PrngReg)

/-! ## After the first launch -/

/-- The first launch leaves in its output array the per-edge shares of the gathered source rows and the edge
    features. -/
theorem w3_comb (c : Dev nD) :
    W3 (F := Ideal) m ρ c (Proc.devRef .tc main_v10)
      = Cert.MP.edgeMix (takeRows (m ((c : Thread nD τ).loc main_arg0)) (srcW (m ((c : Thread nD τ).loc main_arg1))))
          (m ((c : Thread nD τ).loc main_arg2)) (w1a (m ((c : Thread nD τ).loc main_arg3)))
          (w1c (m ((c : Thread nD τ).loc main_arg3))) := by
  rw [show W3 (F := Ideal) m ρ c (Proc.devRef .tc main_v10) = (dat0 (V2 m ρ) c).arrAt 4 cfg0.N from W3_arr m ρ c 4,
    Cert.KernelIdeal.EdgeRegion.final (V2 m ρ) c]
  show Cert.MP.edgeMix (W2 m ρ c (Proc.devRef .tc main_v9)) (W2 m ρ c (Proc.devRef .tc main_arg2))
    (W2 m ρ c (Proc.devRef .tc main_v4)) (W2 m ρ c (Proc.devRef .tc main_v6)) = _
  rw [w2_take, w2_arg2, w2_w1a, w2_w1c]

/-! ## The scatters' stretch, from any contents -/

/-- The messages' buffer added into zeros at the target words' buffer. -/
theorem agg_stage (w : Valuation τ sig (Elt Ideal)) :
    StableHlo.after (hostOps1 (F := Ideal)) w (Proc.devRef .tc main_v13)
      = aggOf (w (Proc.devRef .tc main_v3)) (w (Proc.devRef .tc main_v10)) := by
  dsimp only [hostOps1]
  after_results
  rfl

/-- The count of received edges, as a column. -/
theorem deg_stage (w : Valuation τ sig (Elt Ideal)) :
    StableHlo.after (hostOps1 (F := Ideal)) w (Proc.devRef .tc main_v18) = degOf (w (Proc.devRef .tc main_v3)) := by
  dsimp only [hostOps1]
  after_results
  rfl

theorem keep1_arg0 (w : Valuation τ sig (Elt Ideal)) :
    StableHlo.after (hostOps1 (F := Ideal)) w (Proc.devRef .tc main_arg0) = w (Proc.devRef .tc main_arg0) := by
  dsimp only [hostOps1]
  after_results
theorem keep1_arg5 (w : Valuation τ sig (Elt Ideal)) :
    StableHlo.after (hostOps1 (F := Ideal)) w (Proc.devRef .tc main_arg5) = w (Proc.devRef .tc main_arg5) := by
  dsimp only [hostOps1]
  after_results
theorem keep1_v5 (w : Valuation τ sig (Elt Ideal)) :
    StableHlo.after (hostOps1 (F := Ideal)) w (Proc.devRef .tc main_v5) = w (Proc.devRef .tc main_v5) := by
  dsimp only [hostOps1]
  after_results
theorem keep1_v7 (w : Valuation τ sig (Elt Ideal)) :
    StableHlo.after (hostOps1 (F := Ideal)) w (Proc.devRef .tc main_v7) = w (Proc.devRef .tc main_v7) := by
  dsimp only [hostOps1]
  after_results
theorem keep1_v8 (w : Valuation τ sig (Elt Ideal)) :
    StableHlo.after (hostOps1 (F := Ideal)) w (Proc.devRef .tc main_v8) = w (Proc.devRef .tc main_v8) := by
  dsimp only [hostOps1]
  after_results

/-! ## The second launch's entry contents -/

theorem w2_arg0 (c : Dev nD) : W2 (F := Ideal) m ρ c (Proc.devRef .tc main_arg0) = m ((c : Thread nD τ).loc main_arg0) := by
  dsimp only [W2, W1, W0, hostOps0, hostOps0_1]
  after_results

theorem w2_arg5 (c : Dev nD) : W2 (F := Ideal) m ρ c (Proc.devRef .tc main_arg5) = m ((c : Thread nD τ).loc main_arg5) := by
  dsimp only [W2, W1, W0, hostOps0, hostOps0_1]
  after_results

theorem w4_agg (c : Dev nD) :
    W4 (F := Ideal) m ρ c (Proc.devRef .tc main_v13)
      = aggOf (dstW (m ((c : Thread nD τ).loc main_arg1)))
          (Cert.MP.edgeMix (takeRows (m ((c : Thread nD τ).loc main_arg0)) (srcW (m ((c : Thread nD τ).loc main_arg1))))
            (m ((c : Thread nD τ).loc main_arg2)) (w1a (m ((c : Thread nD τ).loc main_arg3)))
            (w1c (m ((c : Thread nD τ).loc main_arg3)))) := by
  show StableHlo.after (hostOps1 (F := Ideal)) (W3 m ρ c) (Proc.devRef .tc main_v13) = _
  rw [agg_stage, w3_comb, W3_of_ne m ρ c main_v3 (by decide), w2_dst]

theorem w4_deg (c : Dev nD) :
    W4 (F := Ideal) m ρ c (Proc.devRef .tc main_v18) = degOf (dstW (m ((c : Thread nD τ).loc main_arg1))) := by
  show StableHlo.after (hostOps1 (F := Ideal)) (W3 m ρ c) (Proc.devRef .tc main_v18) = _
  rw [deg_stage, W3_of_ne m ρ c main_v3 (by decide), w2_dst]

theorem w4_arg0 (c : Dev nD) : W4 (F := Ideal) m ρ c (Proc.devRef .tc main_arg0) = m ((c : Thread nD τ).loc main_arg0) := by
  show StableHlo.after (hostOps1 (F := Ideal)) (W3 m ρ c) (Proc.devRef .tc main_arg0) = _
  rw [keep1_arg0, W3_of_ne m ρ c main_arg0 (by decide), w2_arg0]

theorem w4_arg5 (c : Dev nD) : W4 (F := Ideal) m ρ c (Proc.devRef .tc main_arg5) = m ((c : Thread nD τ).loc main_arg5) := by
  show StableHlo.after (hostOps1 (F := Ideal)) (W3 m ρ c) (Proc.devRef .tc main_arg5) = _
  rw [keep1_arg5, W3_of_ne m ρ c main_arg5 (by decide), w2_arg5]

theorem w4_w1b (c : Dev nD) : W4 (F := Ideal) m ρ c (Proc.devRef .tc main_v5) = w1b (m ((c : Thread nD τ).loc main_arg3)) := by
  show StableHlo.after (hostOps1 (F := Ideal)) (W3 m ρ c) (Proc.devRef .tc main_v5) = _
  rw [keep1_v5, W3_of_ne m ρ c main_v5 (by decide), w2_w1b]

theorem w4_b1 (c : Dev nD) : W4 (F := Ideal) m ρ c (Proc.devRef .tc main_v7) = asRow (m ((c : Thread nD τ).loc main_arg4)) := by
  show StableHlo.after (hostOps1 (F := Ideal)) (W3 m ρ c) (Proc.devRef .tc main_v7) = _
  rw [keep1_v7, W3_of_ne m ρ c main_v7 (by decide), w2_b1]

theorem w4_b2 (c : Dev nD) : W4 (F := Ideal) m ρ c (Proc.devRef .tc main_v8) = asRow (m ((c : Thread nD τ).loc main_arg6)) := by
  show StableHlo.after (hostOps1 (F := Ideal)) (W3 m ρ c) (Proc.devRef .tc main_v8) = _
  rw [keep1_v8, W3_of_ne m ρ c main_v8 (by decide), w2_b2]

/-! ## The result -/

/-- At the last boundary the result buffer holds the kernel program's function of the launch memory's arguments. -/
theorem value (c : Dev nD) :
    W5 (F := Ideal) m ρ c (Proc.devRef .tc main_v19)
      = kernelVal (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) := by
  rw [show W5 (F := Ideal) m ρ c (Proc.devRef .tc main_v19) = (dat1 (V4 m ρ) c).arrAt 7 cfg1.N from W5_arr m ρ c 7,
    Cert.KernelIdeal.NodeRegion.final (V4 m ρ) c]
  show Cert.MP.nodeOut (W4 m ρ c (Proc.devRef .tc main_v13)) (W4 m ρ c (Proc.devRef .tc main_arg0))
    (W4 m ρ c (Proc.devRef .tc main_v18)) (W4 m ρ c (Proc.devRef .tc main_v5)) (W4 m ρ c (Proc.devRef .tc main_v7))
    (W4 m ρ c (Proc.devRef .tc main_arg5)) (W4 m ρ c (Proc.devRef .tc main_v8)) = _
  rw [w4_agg, w4_arg0, w4_deg, w4_w1b, w4_b1, w4_arg5, w4_b2]
  rfl

end Cert.KernelIdeal.Fold

end
-- ==== Proof.EdgeWords.lean ====
/-
  The words of an edge list and the node rows they name.

  The edge list is a `[2, 640000]` array of 32-bit words: row 0 the source words, row 1 the target words. A word names a
  row of the 10000-row node table as jax's indexing reads it: a negative word has the extent added (`wrapWord`), and
  the result, read signed, is clamped into `[0, 9999]` (`rowOf`). The scatter that adds messages into nodes reads the
  target word signed and as it is (`dstInt`): it lands on node `n` exactly when that reading is `n`, and then the row
  the target word names is `n` too (`dstRow_of_dstInt`).
-/
import Idealize.ShloMosaic.PureOps.Ideal
import Idealize.ShloMosaic.Lib.ValueIdx
import Idealize.ShloMosaic.Lib.Affine

namespace Cert.MP

open Idealize.ShloMosaic Idealize.ShloMosaic.ValueIdx

/-- Edge `e`'s source word. -/
def srcWord (ei : IVec ⟨2, ![2, 640000]⟩ 32) (e : Fin 640000) : BitVec 32 := ei (ix2 0 e)
/-- Edge `e`'s target word. -/
def dstWord (ei : IVec ⟨2, ![2, 640000]⟩ 32) (e : Fin 640000) : BitVec 32 := ei (ix2 1 e)

/-- A negative index counts from the end: the extent is added to a word that reads negative. -/
def wrapWord (w : BitVec 32) : BitVec 32 :=
  Scalar.select (IntOp.cmpi .slt w 0#32) (IntOp.addi w 10000#32) w

/-- The table row a start word names: read signed, clamped into the table. -/
def rowOf (w : BitVec 32) : Fin 10000 := ⟨min w.toInt.toNat 9999, by omega⟩

/-- The row edge `e`'s source word names. -/
def srcRow (ei : IVec ⟨2, ![2, 640000]⟩ 32) (e : Fin 640000) : Fin 10000 := rowOf (wrapWord (srcWord ei e))
/-- The row edge `e`'s target word names. -/
def dstRow (ei : IVec ⟨2, ![2, 640000]⟩ 32) (e : Fin 640000) : Fin 10000 := rowOf (wrapWord (dstWord ei e))
/-- Edge `e`'s target word read signed, as the scatter reads it. -/
def dstInt (ei : IVec ⟨2, ![2, 640000]⟩ 32) (e : Fin 640000) : ℤ := (dstWord ei e).toInt

/-- A word that does not read negative is left as it is. -/
theorem wrapWord_of_nonneg {w : BitVec 32} (h : 0 ≤ w.toInt) : wrapWord w = w := by
  unfold wrapWord Scalar.select
  rw [if_neg]
  intro hc
  have := IntOp.cmpi_slt.mp hc
  have h0 : (0#32 : BitVec 32).toInt = 0 := by decide
  omega

/-- A word reading in `[0, 10000)` names the row of that number. -/
theorem rowOf_val_of_inRange {w : BitVec 32} (h0 : 0 ≤ w.toInt) (h1 : w.toInt < 10000) :
    (rowOf w).val = w.toInt.toNat := by
  show min w.toInt.toNat 9999 = w.toInt.toNat
  omega

/-- An edge the scatter lands on node `n` has target row `n`. -/
theorem dstRow_of_dstInt (ei : IVec ⟨2, ![2, 640000]⟩ 32) (e : Fin 640000) (n : Fin 10000)
    (h : dstInt ei e = (n.val : ℤ)) : dstRow ei e = n := by
  unfold dstInt at h
  have hn := n.isLt
  have h0 : 0 ≤ (dstWord ei e).toInt := by omega
  unfold dstRow
  rw [wrapWord_of_nonneg h0]
  refine Fin.ext ?_
  rw [rowOf_val_of_inRange h0 (by omega)]
  omega

/-- Under the range condition on the source words, the wrapped source word still reads in `[0, 9999]`. -/
theorem wrap_srcWord_inRange (ei : IVec ⟨2, ![2, 640000]⟩ 32) (e : Fin 640000)
    (h0 : 0 ≤ (srcWord ei e).toInt) (h1 : (srcWord ei e).toInt < 10000) :
    0 ≤ (wrapWord (srcWord ei e)).toInt ∧ (wrapWord (srcWord ei e)).toInt ≤ 9999 := by
  rw [wrapWord_of_nonneg h0]
  omega

end Cert.MP
-- ==== Proof.LibRowGatherScatter.lean ====
/-
  Rows of a matrix taken at an index vector, and rows of a matrix added into a matrix at an index vector, each read
  at one element.

  `h[row]` for a matrix `h : [N, D]` and an index vector `row : [E]` is a gather whose slices are whole rows
  (slice sizes `[1, D]`, the row axis collapsed, the column axis the one offset axis) over the start indices as
  `[E, 1]`: result element `(e, c)` is `h` at row `row[e]` — the start word read SIGNED and clamped into
  `[0, N − 1]` — and column `c` (`gather_rows_apply`); for a start word already in `[0, N)` the row is the word
  itself (`gather_rows_apply_of_inRange`, `gather_rows_apply_toNat`).

  `segment_sum(msg, col)` for `msg : [E, D]` and `col : [E]` into `N` segments is a scatter that adds whole rows
  (the column axis the one update window axis, the row axis of the operand inserted) at one-component index vectors:
  update element `(e, c)` lands at `(n, c')` exactly when its start word, read signed and NOT clamped, is `n` and
  `c = c'` (`resultIdx?_rows_eq_some_iff`); an update whose start word is outside `[0, N)` lands nowhere. So
  the result at `(n, c)` is the operand's element plus the sum over the rows `e` whose start word is `n` of
  `upd (e, c)` (`scatterAdd_rows_apply`).
-/
import Idealize.ShloMosaic.PureOps.Ideal
import Idealize.ShloMosaic.Lib.ValueIdx
import Mathlib.Algebra.BigOperators.Fin

namespace Cert.Lib.RowGS

open Idealize.ShloMosaic Idealize.ShloMosaic.ValueIdx
open scoped BigOperators

/-! ## Rows gathered -/

/-- The dimension numbers of a gather of whole rows: operand `[N, D]`, start indices `[E, 1]`, result `[E, D]`;
    the result's column axis is the one offset axis, the operand's row axis is collapsed and is the axis the
    one-component start index names, the slices are `1 × D`. -/
abbrev rowGatherDims (N D E : ℕ)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The row gather at those dimension numbers, read at `(e, c)`: on the row axis the clamped start word and nothing
    else (no batching axis, the axis collapsed), on the column axis no start (the start index does not name it) and
    the result's column coordinate as offset. -/
theorem gather_rowDims_apply {α : Type} {N D E w : ℕ} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (c : Fin D) :
    Host.gather (rowGatherDims N D E wf) x idx (ix2 e c)
      = x (ix2 ⟨min (idx (ix2 e 0)).toInt.toNat (N - 1), by omega⟩ c) := by
  unfold Host.gather
  congr 1
  funext a
  refine Fin.ext ?_
  match a with
  | ⟨0, _⟩ =>
    show (rowGatherDims N D E wf).start (ix2 e c) idx 0 + (rowGatherDims N D E wf).batchCoord (ix2 e c) 0
      + (rowGatherDims N D E wf).offCoord (ix2 e c) 0 = _
    rw [GatherDims.batchCoord_eq_zero _ _ _ List.not_mem_nil,
      GatherDims.offCoord_eq_zero _ _ _
        (fun h => ((GatherDims.mem_sKept _ _).mp h).1 (List.mem_singleton.mpr rfl))]
    simp only [Nat.add_zero]
    unfold GatherDims.start
    rw [dif_pos (show (0 : Fin 2) ∈ (rowGatherDims N D E wf).startIndexMap from List.mem_singleton.mpr rfl)]
    have hsi : (rowGatherDims N D E wf).siIdx (ix2 e c)
        ⟨List.idxOf (0 : Fin 2) (rowGatherDims N D E wf).startIndexMap,
          List.idxOf_lt_length_iff.2 (List.mem_singleton.mpr rfl)⟩ = ix2 e 0 := by
      funext b
      refine Fin.ext ?_
      match b with
      | ⟨0, _⟩ => rfl
      | ⟨1, _⟩ => rfl
    rw [hsi]
    rfl
  | ⟨1, _⟩ =>
    show (rowGatherDims N D E wf).start (ix2 e c) idx 1 + (rowGatherDims N D E wf).batchCoord (ix2 e c) 1
      + (rowGatherDims N D E wf).offCoord (ix2 e c) 1 = c.val
    have hstart : (rowGatherDims N D E wf).start (ix2 e c) idx 1 = 0 := by
      unfold GatherDims.start
      rw [dif_neg]
      intro hmem
      exact absurd (List.mem_singleton.mp hmem) (show ¬ (1 : Fin 2) = 0 by decide)
    have hoff : (rowGatherDims N D E wf).offCoord (ix2 e c) 1 = c.val := by
      unfold GatherDims.offCoord
      rw [dif_pos ((GatherDims.mem_sKept _ _).mpr
        ⟨fun h => absurd (List.mem_singleton.mp h) (show ¬ (1 : Fin 2) = 0 by decide), List.not_mem_nil⟩)]
      rfl
    rw [hstart, GatherDims.batchCoord_eq_zero _ _ _ List.not_mem_nil, hoff]
    simp

/-- THE ROW GATHER READ AT `(e, c)`, for any record with those dimension numbers: the operand at column `c` of the
    row the start word `idx (e, 0)` names, the word read signed and clamped into `[0, N − 1]`. -/
theorem gather_rows_apply {α : Type} {N D E w : ℕ} (hN : 0 < N)
    (d : GatherDims ⟨2, ![N, D]⟩ ⟨2, ![E, 1]⟩ ⟨2, ![E, D]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, D])
    (x : (⟨2, ![N, D]⟩ : Shape).Idx → α) (idx : IVec ⟨2, ![E, 1]⟩ w) (e : Fin E) (c : Fin D) :
    Host.gather d x idx (ix2 e c)
      = x (ix2 ⟨min (idx (ix2 e 0)).toInt.toNat (N - 1), by omega⟩ c) := by
  obtain ⟨od, cd, ob, sb, sm, iv, ss, wf⟩ := d
  simp only at h1 h2 h3 h4 h5 h6 h7
  subst h1 h2 h3 h4 h5 h6 h7
  exact gather_rowDims_apply hN wf x idx e c

/-- The row gather at a start word already in `[0, N)`: the clamp does nothing, the row is the word read signed. -/
theorem gather_rows_apply_of_inRange {α : Type} {N D E w : ℕ}
    (d : GatherDims ⟨2, ![N, D]⟩ ⟨2, ![E, 1]⟩ ⟨2, ![E, D]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, D])
    (x : (⟨2, ![N, D]⟩ : Shape).Idx → α) (idx : IVec ⟨2, ![E, 1]⟩ w) (e : Fin E) (c : Fin D)
    (h0 : 0 ≤ (idx (ix2 e 0)).toInt) (hlt : (idx (ix2 e 0)).toInt < (N : ℤ)) :
    Host.gather d x idx (ix2 e c)
      = x (ix2 ⟨(idx (ix2 e 0)).toInt.toNat, by omega⟩ c) := by
  rw [gather_rows_apply (by omega) d h1 h2 h3 h4 h5 h6 h7 x idx e c]
  congr 2
  refine Fin.ext ?_
  show min (idx (ix2 e 0)).toInt.toNat (N - 1) = (idx (ix2 e 0)).toInt.toNat
  omega

/-- A word whose signed reading is not negative reads the same signed and unsigned. -/
theorem toInt_eq_toNat_of_nonneg {w : ℕ} (b : BitVec w) (h0 : 0 ≤ b.toInt) : b.toInt = (b.toNat : ℤ) := by
  rw [BitVec.toInt_eq_toNat_cond] at h0 ⊢
  by_cases h : 2 * b.toNat < 2 ^ w
  · rw [if_pos h]
  · rw [if_neg h] at h0
    have := b.isLt
    omega

/-- The row gather at a start word in `[0, N)`, the row written as the word read UNSIGNED (which is its signed
    reading there). -/
theorem gather_rows_apply_toNat {α : Type} {N D E w : ℕ}
    (d : GatherDims ⟨2, ![N, D]⟩ ⟨2, ![E, 1]⟩ ⟨2, ![E, D]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, D])
    (x : (⟨2, ![N, D]⟩ : Shape).Idx → α) (idx : IVec ⟨2, ![E, 1]⟩ w) (e : Fin E) (c : Fin D)
    (h0 : 0 ≤ (idx (ix2 e 0)).toInt) (hlt : (idx (ix2 e 0)).toInt < (N : ℤ)) :
    Host.gather d x idx (ix2 e c)
      = x (ix2 ⟨(idx (ix2 e 0)).toNat, by
          have := toInt_eq_toNat_of_nonneg _ h0; omega⟩ c) := by
  rw [gather_rows_apply_of_inRange d h1 h2 h3 h4 h5 h6 h7 x idx e c h0 hlt]
  congr 2
  refine Fin.ext ?_
  show (idx (ix2 e 0)).toInt.toNat = (idx (ix2 e 0)).toNat
  have := toInt_eq_toNat_of_nonneg _ h0
  omega

/-! ## Rows scattered and added -/

/-- The dimension numbers of a scatter of whole rows: operand `[N, D]`, scatter indices `[E, 1]`, updates `[E, D]`;
    the updates' column axis is the one window axis, the operand's row axis is inserted and is the axis the
    one-component scatter index names. -/
abbrev rowScatterDims (N D E : ℕ)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

section RowScatter
variable {N D E w : ℕ} (wf : ScatterDims.WF ⟨2, ![N, D]⟩ ⟨2, ![E, 1]⟩ ⟨2, ![E, D]⟩ [1] [0] [0] 1)
  (idx : IVec ⟨2, ![E, 1]⟩ w) (e : Fin E) (c : Fin D)

/-- On the row axis the window of update `(e, c)` starts at its start word `idx (e, 0)`, read signed. -/
theorem rowScatter_start_row :
    (rowScatterDims N D E wf).start (ix2 e c) idx 0 = (idx (ix2 e 0)).toInt := by
  unfold ScatterDims.start
  rw [dif_pos (show (0 : Fin 2) ∈ (rowScatterDims N D E wf).scatterDimsToOperandDims from
    List.mem_singleton.mpr rfl)]
  congr 2
  funext b
  refine Fin.ext ?_
  match b with
  | ⟨0, _⟩ => rfl
  | ⟨1, _⟩ => rfl

/-- On the column axis, which the scatter index does not name, the window starts at `0`. -/
theorem rowScatter_start_col : (rowScatterDims N D E wf).start (ix2 e c) idx 1 = 0 := by
  unfold ScatterDims.start
  rw [dif_neg]
  intro hmem
  exact absurd (List.mem_singleton.mp hmem) (show ¬ (1 : Fin 2) = 0 by decide)

/-- The operand's axes that are not inserted: the column axis alone. -/
theorem rowScatter_sKept : (rowScatterDims N D E wf).sKept = [1] :=
  (by decide : (List.finRange 2).filter (fun a : Fin 2 => decide (a ∉ ([0] : List (Fin 2)))) = [1])

/-- The inserted row axis has window coordinate `0`. -/
theorem rowScatter_window_row : (rowScatterDims N D E wf).window (ix2 e c) 0 = 0 := by
  unfold ScatterDims.window
  rw [dif_neg]
  intro hmem
  rw [rowScatter_sKept] at hmem
  exact absurd (List.mem_singleton.mp hmem) (show ¬ (0 : Fin 2) = 1 by decide)

/-- The column axis has the update's column as window coordinate. -/
theorem rowScatter_window_col : (rowScatterDims N D E wf).window (ix2 e c) 1 = c.val := by
  unfold ScatterDims.window
  rw [dif_pos (show (1 : Fin 2) ∈ (rowScatterDims N D E wf).sKept by
    rw [rowScatter_sKept]; exact List.mem_singleton.mpr rfl)]
  rfl

/-- Update `(e, c)` of a row scatter lands at `(n, c')` exactly when its start word, read signed, is `n` and the
    columns agree; a start word outside `[0, N)` lands nowhere. -/
theorem resultIdx?_rowDims_eq_some_iff (n : Fin N) (c' : Fin D) :
    (rowScatterDims N D E wf).resultIdx? (ix2 e c) idx = some (ix2 n c')
      ↔ (idx (ix2 e 0)).toInt = (n.val : ℤ) ∧ c = c' := by
  have hs0 := rowScatter_start_row wf idx e c
  have hs1 := rowScatter_start_col wf idx e c
  have hw0 := rowScatter_window_row wf e c
  have hw1 := rowScatter_window_col wf e c
  have hc := c.isLt
  have hn := n.isLt
  unfold ScatterDims.resultIdx?
  by_cases hin : 0 ≤ (idx (ix2 e 0)).toInt ∧ (idx (ix2 e 0)).toInt < (N : ℤ)
  · rw [dif_pos (by
      intro a
      match a with
      | ⟨0, _⟩ =>
        show 0 ≤ (rowScatterDims N D E wf).start (ix2 e c) idx 0
            + (((rowScatterDims N D E wf).window (ix2 e c) 0 : ℕ) : ℤ)
          ∧ (rowScatterDims N D E wf).start (ix2 e c) idx 0
            + (((rowScatterDims N D E wf).window (ix2 e c) 0 : ℕ) : ℤ) < (N : ℤ)
        rw [hs0, hw0]
        omega
      | ⟨1, _⟩ =>
        show 0 ≤ (rowScatterDims N D E wf).start (ix2 e c) idx 1
            + (((rowScatterDims N D E wf).window (ix2 e c) 1 : ℕ) : ℤ)
          ∧ (rowScatterDims N D E wf).start (ix2 e c) idx 1
            + (((rowScatterDims N D E wf).window (ix2 e c) 1 : ℕ) : ℤ) < (D : ℤ)
        rw [hs1, hw1]
        omega)]
    rw [Option.some_inj]
    constructor
    · intro hf
      have h0 : ((rowScatterDims N D E wf).start (ix2 e c) idx 0
          + (((rowScatterDims N D E wf).window (ix2 e c) 0 : ℕ) : ℤ)).toNat = n.val :=
        congrArg (fun f => (f 0).val) hf
      have h1 : ((rowScatterDims N D E wf).start (ix2 e c) idx 1
          + (((rowScatterDims N D E wf).window (ix2 e c) 1 : ℕ) : ℤ)).toNat = c'.val :=
        congrArg (fun f => (f 1).val) hf
      rw [hs0, hw0] at h0
      rw [hs1, hw1] at h1
      exact ⟨by omega, Fin.ext (by omega)⟩
    · rintro ⟨ht, rfl⟩
      funext a
      apply Fin.ext
      match a with
      | ⟨0, _⟩ =>
        show ((rowScatterDims N D E wf).start (ix2 e c) idx 0
          + (((rowScatterDims N D E wf).window (ix2 e c) 0 : ℕ) : ℤ)).toNat = n.val
        rw [hs0, hw0]
        omega
      | ⟨1, _⟩ =>
        show ((rowScatterDims N D E wf).start (ix2 e c) idx 1
          + (((rowScatterDims N D E wf).window (ix2 e c) 1 : ℕ) : ℤ)).toNat = c.val
        rw [hs1, hw1]
        omega
  · rw [dif_neg (by
      intro hall
      apply hin
      have h := hall 0
      have h' : 0 ≤ (rowScatterDims N D E wf).start (ix2 e c) idx 0
            + (((rowScatterDims N D E wf).window (ix2 e c) 0 : ℕ) : ℤ)
          ∧ (rowScatterDims N D E wf).start (ix2 e c) idx 0
            + (((rowScatterDims N D E wf).window (ix2 e c) 0 : ℕ) : ℤ) < (N : ℤ) := h
      rw [hs0, hw0] at h'
      omega)]
    constructor
    · intro hf
      cases hf
    · rintro ⟨ht, -⟩
      exfalso
      apply hin
      omega

end RowScatter

/-- WHERE A ROW UPDATE LANDS, for any record with those dimension numbers: update `(e, c)` lands at `(n, c')` exactly
    when its start word `idx (e, 0)`, read signed and not clamped, is `n`, and `c = c'`. -/
theorem resultIdx?_rows_eq_some_iff {N D E w : ℕ} (d : ScatterDims ⟨2, ![N, D]⟩ ⟨2, ![E, 1]⟩ ⟨2, ![E, D]⟩)
    (h1 : d.updateWindowDims = [1]) (h2 : d.insertedWindowDims = [0]) (h3 : d.scatterDimsToOperandDims = [0])
    (h4 : d.indexVectorDim = 1) (idx : IVec ⟨2, ![E, 1]⟩ w) (e : Fin E) (c : Fin D) (n : Fin N) (c' : Fin D) :
    d.resultIdx? (ix2 e c) idx = some (ix2 n c') ↔ (idx (ix2 e 0)).toInt = (n.val : ℤ) ∧ c = c' := by
  obtain ⟨uw, iw, sd, iv, wf⟩ := d
  simp only at h1 h2 h3 h4
  subst h1 h2 h3 h4
  exact resultIdx?_rowDims_eq_some_iff wf idx e c n c'

/-- THE ROW SCATTER-ADD READ AT `(n, c)`: the operand's element plus, over the update rows `e` whose start word read
    signed is `n`, the update's element in column `c`. -/
theorem scatterAdd_rows_apply {N D E w : ℕ} (d : ScatterDims ⟨2, ![N, D]⟩ ⟨2, ![E, 1]⟩ ⟨2, ![E, D]⟩)
    (h1 : d.updateWindowDims = [1]) (h2 : d.insertedWindowDims = [0]) (h3 : d.scatterDimsToOperandDims = [0])
    (h4 : d.indexVectorDim = 1)
    (x : (⟨2, ![N, D]⟩ : Shape).Idx → EReal) (idx : IVec ⟨2, ![E, 1]⟩ w)
    (upd : (⟨2, ![E, D]⟩ : Shape).Idx → EReal) (n : Fin N) (c : Fin D) :
    Ideal.hostScatterAdd d x idx upd (ix2 n c)
      = x (ix2 n c) + ∑ e : Fin E, if (idx (ix2 e 0)).toInt = (n.val : ℤ) then upd (ix2 e c) else 0 := by
  unfold Ideal.hostScatterAdd
  congr 1
  rw [Finset.sum_filter, sum_idx2]
  refine Finset.sum_congr rfl (fun e _ => ?_)
  simp only [resultIdx?_rows_eq_some_iff d h1 h2 h3 h4 idx e _ n c]
  by_cases ht : (idx (ix2 e 0)).toInt = (n.val : ℤ)
  · simp [ht]
  · simp [ht]

end Cert.Lib.RowGS
-- ==== Proof.LibBincount.lean ====
/-
  Counting by a scatter that adds: `Host.scatter` with the body the 32-bit addition, `N` scalar updates, an operand
  of `M` words and one-component index vectors (no update window axis, the operand's one axis inserted, the index
  vector on the indices' second axis).

  An update lands where its index word says, the word read SIGNED and not clamped; an update whose index is outside
  `[0, M)` is dropped. So the result at `s` is the operand's word plus the sum of the updates whose index word is `s`
  (`scatter_add_apply`). With the operand all zeros, every update the word `1` and `N < 2 ^ 31`, the result at `s`,
  read unsigned or signed, is the NUMBER of updates whose index word is `s` (`scatter_ones_toNat`,
  `scatter_ones_toInt`).
-/
import Idealize.ShloMosaic.PureOps.Ideal
import Idealize.ShloMosaic.Lib.ValueIdx
import Mathlib.Data.BitVec
import Mathlib.Algebra.BigOperators.Fin

namespace Cert.LibBincount

open Idealize.ShloMosaic Idealize.ShloMosaic.ValueIdx

/-- A left fold whose step adds `u n` at the one place `g n` names (nowhere when it names none), read at one
    place `i0`: the start there plus the `u n` with `g n = some i0`. -/
theorem foldl_step_apply {ι κ A : Type*} [AddMonoid A] (step : (κ → A) → ι → κ → A)
    (g : ι → Option κ) (u : ι → A) [DecidableEq κ]
    (hstep : ∀ r n i', step r n i' = if g n = some i' then r i' + u n else r i')
    (l : List ι) (x : κ → A) (i0 : κ) :
    (l.foldl step x) i0 = x i0 + (l.map fun n => if g n = some i0 then u n else 0).sum := by
  induction l generalizing x with
  | nil => simp
  | cons a l ih =>
    rw [List.foldl_cons, ih, hstep, List.map_cons, List.sum_cons]
    by_cases hg : g a = some i0
    · rw [if_pos hg, if_pos hg, add_assoc]
    · rw [if_neg hg, if_neg hg, zero_add]

/-- A rank-1 index set is its coordinate's range. -/
def idxEquiv1 {n : ℕ} : (⟨1, ![n]⟩ : Shape).Idx ≃ Fin n where
  toFun i := i 0
  invFun a := ix1 a
  left_inv i := (eq_ix1 i).symm
  right_inv _ := rfl

/-- An update of a scatter of scalars at one-component index vectors lands at `s` exactly when its index word,
    read signed, is `s`. -/
theorem resultIdx?_eq_some_iff {w : ℕ} (M N : ℕ) (d : ScatterDims ⟨1, ![M]⟩ ⟨2, ![N, 1]⟩ ⟨1, ![N]⟩)
    (h1 : d.updateWindowDims = []) (h2 : d.insertedWindowDims = [0]) (h3 : d.scatterDimsToOperandDims = [0])
    (h4 : d.indexVectorDim = 1) (idx : IVec ⟨2, ![N, 1]⟩ w) (n : Fin N) (s : Fin M) :
    d.resultIdx? (ix1 n) idx = some (ix1 s) ↔ (idx (ix2 n 0)).toInt = (s.val : ℤ) := by
  obtain ⟨uw, iw, sd, iv, wf⟩ := d
  simp only at h1 h2 h3 h4
  subst h1 h2 h3 h4
  have hstart : (ScatterDims.mk [] [0] [0] 1 wf).start (ix1 n) idx 0 = (idx (ix2 n 0)).toInt := by
    unfold ScatterDims.start
    rw [dif_pos (show (0 : Fin 1) ∈ (ScatterDims.mk [] [0] [0] 1 wf).scatterDimsToOperandDims from
      List.mem_singleton.mpr rfl)]
    congr 2
    funext b
    refine Fin.ext ?_
    match b with
    | ⟨0, _⟩ => rfl
    | ⟨1, _⟩ => rfl
  have hwin : (ScatterDims.mk [] [0] [0] 1 wf).window (ix1 n) 0 = 0 := by
    unfold ScatterDims.window
    rw [dif_neg]
    intro hmem
    have hk : (ScatterDims.mk [] [0] [0] 1 wf).sKept = [] :=
      (by decide : (List.finRange 1).filter (fun a : Fin 1 => decide (a ∉ ([0] : List (Fin 1)))) = [])
    rw [hk] at hmem
    exact List.not_mem_nil hmem
  unfold ScatterDims.resultIdx?
  by_cases hin : 0 ≤ (idx (ix2 n 0)).toInt ∧ (idx (ix2 n 0)).toInt < (M : ℤ)
  · rw [dif_pos (by
      intro a
      obtain rfl : a = 0 := Subsingleton.elim _ _
      rw [hstart, hwin]
      simpa using hin)]
    rw [Option.some_inj]
    constructor
    · intro hf
      have h0 := congrArg (fun f => (f 0).val) hf
      simp only [hstart, hwin] at h0
      have h0' : ((idx (ix2 n 0)).toInt + ((0 : ℕ) : ℤ)).toNat = s.val := h0
      omega
    · intro ht
      funext a
      obtain rfl : a = 0 := Subsingleton.elim _ _
      apply Fin.ext
      show ((ScatterDims.mk [] [0] [0] 1 wf).start (ix1 n) idx 0
        + (((ScatterDims.mk [] [0] [0] 1 wf).window (ix1 n) 0 : ℕ) : ℤ)).toNat = s.val
      rw [hstart, hwin, ht]
      simp
  · rw [dif_neg (by
      intro hall
      apply hin
      have := hall 0
      rw [hstart, hwin] at this
      simpa using this)]
    constructor
    · intro hf
      cases hf
    · intro ht
      exfalso
      apply hin
      rw [ht]
      exact ⟨by omega, by exact_mod_cast s.isLt⟩

/-- The scatter at `s`: the operand's word plus the updates whose index word, read signed, is `s`. -/
theorem scatter_add_apply {w : ℕ} (M N : ℕ) (d : ScatterDims ⟨1, ![M]⟩ ⟨2, ![N, 1]⟩ ⟨1, ![N]⟩)
    (h1 : d.updateWindowDims = []) (h2 : d.insertedWindowDims = [0]) (h3 : d.scatterDimsToOperandDims = [0])
    (h4 : d.indexVectorDim = 1)
    (x : (⟨1, ![M]⟩ : Shape).Idx → BitVec 32) (idx : IVec ⟨2, ![N, 1]⟩ w) (upd : (⟨1, ![N]⟩ : Shape).Idx → BitVec 32)
    (s : Fin M) :
    Host.scatter d IntOp.addi x idx upd (ix1 s)
      = x (ix1 s) + ∑ n : Fin N, if (idx (ix2 n 0)).toInt = (s.val : ℤ) then upd (ix1 n) else 0 := by
  unfold Host.scatter
  rw [foldl_step_apply _ (fun n => d.resultIdx? ((Shape.rowMajor ⟨1, ![N]⟩).symm n) idx)
    (fun n => upd ((Shape.rowMajor ⟨1, ![N]⟩).symm n)) ?hstep]
  case hstep =>
    intro r n i'
    generalize d.resultIdx? ((Shape.rowMajor ⟨1, ![N]⟩).symm n) idx = o
    cases o with
    | none => simp
    | some i =>
      by_cases hi : i' = i
      · subst hi; simp [IntOp.addi]
      · simp [hi, Ne.symm hi]
  rw [← Fin.sum_univ_def]
  congr 1
  rw [Equiv.sum_comp (Shape.rowMajor ⟨1, ![N]⟩).symm
    (fun i => if d.resultIdx? i idx = some (ix1 s) then upd i else 0)]
  rw [← Equiv.sum_comp (idxEquiv1 (n := N)).symm]
  refine Finset.sum_congr rfl (fun n _ => ?_)
  show (if d.resultIdx? (ix1 n) idx = some (ix1 s) then upd (ix1 n) else 0) = _
  simp only [resultIdx?_eq_some_iff M N d h1 h2 h3 h4 idx n s]

/-- A set of indices below `N < 2 ^ 31` has fewer than `2 ^ 31` members. -/
theorem card_filter_lt (N : ℕ) (hN : N < 2 ^ 31) (p : Fin N → Prop) [DecidablePred p] :
    (Finset.univ.filter p).card < 2 ^ 31 :=
  lt_of_le_of_lt (le_trans (Finset.card_filter_le _ _) (by simp)) hN

/-- A number below `2 ^ 31` cast to a 32-bit word reads back unsigned as itself. -/
theorem toNat_natCast_of_lt (c : ℕ) (hc : c < 2 ^ 31) : ((c : BitVec 32)).toNat = c := by
  rw [BitVec.natCast_eq_ofNat, BitVec.toNat_ofNat]
  exact Nat.mod_eq_of_lt (by omega)

/-- A number below `2 ^ 31` cast to a 32-bit word reads back signed as itself. -/
theorem toInt_natCast_of_lt (c : ℕ) (hc : c < 2 ^ 31) : ((c : BitVec 32)).toInt = (c : ℤ) := by
  rw [BitVec.toInt_eq_toNat_of_lt (by rw [toNat_natCast_of_lt c hc]; omega), toNat_natCast_of_lt c hc]

/-- All-ones updates into zeros: the scatter at `s` is, as a word, the number of updates whose index word is `s`. -/
theorem scatter_ones_eq_card {w : ℕ} (M N : ℕ) (d : ScatterDims ⟨1, ![M]⟩ ⟨2, ![N, 1]⟩ ⟨1, ![N]⟩)
    (h1 : d.updateWindowDims = []) (h2 : d.insertedWindowDims = [0]) (h3 : d.scatterDimsToOperandDims = [0])
    (h4 : d.indexVectorDim = 1)
    (x : (⟨1, ![M]⟩ : Shape).Idx → BitVec 32) (hx : ∀ i, x i = 0#32) (idx : IVec ⟨2, ![N, 1]⟩ w)
    (upd : (⟨1, ![N]⟩ : Shape).Idx → BitVec 32) (hupd : ∀ i, upd i = 1#32) (s : Fin M) :
    Host.scatter d IntOp.addi x idx upd (ix1 s)
      = ((Finset.univ.filter fun n : Fin N => (idx (ix2 n 0)).toInt = (s.val : ℤ)).card : BitVec 32) := by
  rw [scatter_add_apply M N d h1 h2 h3 h4 x idx upd s, hx, ← Finset.sum_boole]
  have h0 : ∀ a : BitVec 32, 0#32 + a = a := fun a => by simp
  rw [h0]
  refine Finset.sum_congr rfl (fun n _ => ?_)
  rw [hupd]
  simp

/-- All-ones updates into zeros, fewer than `2 ^ 31` of them: the word at `s` read unsigned counts the updates
    whose index word is `s`. -/
theorem scatter_ones_toNat {w : ℕ} (M N : ℕ) (hN : N < 2 ^ 31) (d : ScatterDims ⟨1, ![M]⟩ ⟨2, ![N, 1]⟩ ⟨1, ![N]⟩)
    (h1 : d.updateWindowDims = []) (h2 : d.insertedWindowDims = [0]) (h3 : d.scatterDimsToOperandDims = [0])
    (h4 : d.indexVectorDim = 1)
    (x : (⟨1, ![M]⟩ : Shape).Idx → BitVec 32) (hx : ∀ i, x i = 0#32) (idx : IVec ⟨2, ![N, 1]⟩ w)
    (upd : (⟨1, ![N]⟩ : Shape).Idx → BitVec 32) (hupd : ∀ i, upd i = 1#32) (s : Fin M) :
    (Host.scatter d IntOp.addi x idx upd (ix1 s)).toNat
      = (Finset.univ.filter fun n : Fin N => (idx (ix2 n 0)).toInt = (s.val : ℤ)).card := by
  rw [scatter_ones_eq_card M N d h1 h2 h3 h4 x hx idx upd hupd s]
  exact toNat_natCast_of_lt _ (card_filter_lt N hN _)

/-- The same count, the word read signed. -/
theorem scatter_ones_toInt {w : ℕ} (M N : ℕ) (hN : N < 2 ^ 31) (d : ScatterDims ⟨1, ![M]⟩ ⟨2, ![N, 1]⟩ ⟨1, ![N]⟩)
    (h1 : d.updateWindowDims = []) (h2 : d.insertedWindowDims = [0]) (h3 : d.scatterDimsToOperandDims = [0])
    (h4 : d.indexVectorDim = 1)
    (x : (⟨1, ![M]⟩ : Shape).Idx → BitVec 32) (hx : ∀ i, x i = 0#32) (idx : IVec ⟨2, ![N, 1]⟩ w)
    (upd : (⟨1, ![N]⟩ : Shape).Idx → BitVec 32) (hupd : ∀ i, upd i = 1#32) (s : Fin M) :
    (Host.scatter d IntOp.addi x idx upd (ix1 s)).toInt
      = ((Finset.univ.filter fun n : Fin N => (idx (ix2 n 0)).toInt = (s.val : ℤ)).card : ℤ) := by
  rw [scatter_ones_eq_card M N d h1 h2 h3 h4 x hx idx upd hupd s]
  exact toInt_natCast_of_lt _ (card_filter_lt N hN _)

end Cert.LibBincount
-- ==== Proof.LibScatterAdd1.lean ====
/-
  The float scatter that adds, at one-component index vectors: an operand of `M` values, `N` scalar updates, no update
  window axis, the operand's one axis inserted, the index vector on the indices' second axis.

  An update lands where its index word says, the word read SIGNED and not clamped; an update whose index is outside
  `[0, M)` is dropped. At the ideal values the colliding updates are added exactly, in no particular order, so the
  result at `s` is the operand's value there plus the sum, over ALL updates, of the update if its index word is `s`
  and of zero if not.
-/
import proofs.«419142_j5557687681588_3_alg».proof.Proof.LibBincount
import Idealize.ShloMosaic.PureOps.Ideal
import Idealize.ShloMosaic.PureOps.Contract
import Idealize.ShloMosaic.Lib.ValueIdx
import Mathlib.Algebra.BigOperators.Fin

namespace Cert.LibScatterAdd1

open Idealize.ShloMosaic Idealize.ShloMosaic.ValueIdx

/-- The exact accumulating scatter at `s`: the operand's value plus the updates whose index word, read signed, is `s`. -/
theorem hostScatterAdd_apply {w : ℕ} (M N : ℕ) (d : ScatterDims ⟨1, ![M]⟩ ⟨2, ![N, 1]⟩ ⟨1, ![N]⟩)
    (h1 : d.updateWindowDims = []) (h2 : d.insertedWindowDims = [0]) (h3 : d.scatterDimsToOperandDims = [0])
    (h4 : d.indexVectorDim = 1)
    (x : (⟨1, ![M]⟩ : Shape).Idx → EReal) (idx : IVec ⟨2, ![N, 1]⟩ w) (upd : (⟨1, ![N]⟩ : Shape).Idx → EReal)
    (s : Fin M) :
    Ideal.hostScatterAdd d x idx upd (ix1 s)
      = x (ix1 s) + ∑ n : Fin N, if (idx (ix2 n 0)).toInt = (s.val : ℤ) then upd (ix1 n) else 0 := by
  unfold Ideal.hostScatterAdd
  congr 1
  rw [Finset.sum_filter, ← Equiv.sum_comp (Cert.LibBincount.idxEquiv1 (n := N)).symm]
  refine Finset.sum_congr rfl (fun n _ => ?_)
  show (if d.resultIdx? (ix1 n) idx = some (ix1 s) then upd (ix1 n) else 0) = _
  simp only [Cert.LibBincount.resultIdx?_eq_some_iff M N d h1 h2 h3 h4 idx n s]

/-- The same for the host operation as a program states it, at any float format. -/
theorem scatterAdd_apply {w : ℕ} {φ : FTy} (M N : ℕ) (d : ScatterDims ⟨1, ![M]⟩ ⟨2, ![N, 1]⟩ ⟨1, ![N]⟩)
    (h1 : d.updateWindowDims = []) (h2 : d.insertedWindowDims = [0]) (h3 : d.scatterDimsToOperandDims = [0])
    (h4 : d.indexVectorDim = 1)
    (x : FVec Ideal ⟨1, ![M]⟩ φ) (idx : IVec ⟨2, ![N, 1]⟩ w) (upd : FVec Ideal ⟨1, ![N]⟩ φ) (s : Fin M) :
    Host.scatterAdd d x idx upd (ix1 s)
      = (x (ix1 s) + ∑ n : Fin N, if (idx (ix2 n 0)).toInt = (s.val : ℤ) then upd (ix1 n) else 0 : EReal) :=
  hostScatterAdd_apply M N d h1 h2 h3 h4 x idx upd s

end Cert.LibScatterAdd1
-- ==== Proof.KernelRead.lean ====
/-
  The kernel program's result read at one element, as sums.
-/
import proofs.«419142_j5557687681588_3_alg».proof.Proof.KernelStages
import proofs.«419142_j5557687681588_3_alg».proof.Proof.MPSpec
import proofs.«419142_j5557687681588_3_alg».proof.Proof.EdgeWords
import proofs.«419142_j5557687681588_3_alg».proof.Proof.LibRowGatherScatter
import proofs.«419142_j5557687681588_3_alg».proof.Proof.LibScatterAdd1
import proofs.«419142_j5557687681588_3_alg».proof.Proof.LibColumn
import Idealize.ShloMosaic.Lib.Pipeline.Value
import Idealize.ShloMosaic.Lib.ValueIdx
import Idealize.ShloMosaic.Lib.ValueLayout
import Idealize.ShloMosaic.Lib.ReduceAll
import Idealize.ShloMosaic.Lib.Affine
import Idealize.ShloMosaic.PureOps.Ideal.Laws
import Idealize.ShloMosaic.Lib.IdealHost

noncomputable section

namespace Cert.KernelIdeal.StagesRead

open Cert.KernelIdeal Cert.KernelIdeal.Gen Cert.KernelIdeal.Stages
open Idealize.ShloMosaic Idealize.ShloMosaic.TcCoe Idealize.ShloMosaic.ValueIdx
open scoped BigOperators

/-! ## The layout operations, read at an index -/

/-- A bias vector seen as a one-row matrix reads the vector: entry `(0, h)` sits at row-major position `h`. -/
theorem asRow_apply (a : FVec Ideal S128 .f32) (h : Fin 128) : asRow a (ix2 (0 : Fin 1) h) = a (ix1 h) := by
  unfold asRow
  exact shapeCast_apply a shapeCasts_S128_S1x128 (ix2 (0 : Fin 1) h) (ix1 h) (by
    rw [Shape.rowMajor_val_one, Shape.rowMajor_val_two]
    show h.val = 0 * 128 + h.val
    omega)

/-- Row 0 of the edge list, flattened, reads the source word of edge `e`. -/
theorem srcW_apply (a1 : IVec S2x640000 32) (e : Fin 640000) : srcW a1 (ix1 e) = Cert.MP.srcWord a1 e := by
  unfold srcW
  refine (shapeCast_apply _ shapeCasts_S1x640000_S640000 (ix1 e) (ix2 (0 : Fin 1) e) (by
    rw [Shape.rowMajor_val_two, Shape.rowMajor_val_one]
    show 0 * 640000 + e.val = e.val
    omega)).trans ?_
  exact extractStridedSlice_apply ![0, 0] a1 slices_S2x640000_S1x640000_0_0 (ix2 (0 : Fin 1) e) (ix2 (0 : Fin 2) e)
    (fun a => match a with
      | ⟨0, _⟩ => by show (0 : ℕ) = 0 + 0; omega
      | ⟨1, _⟩ => by show e.val = 0 + e.val; omega)

/-- Row 1 of the edge list, flattened, reads the target word of edge `e`. -/
theorem dstW_apply (a1 : IVec S2x640000 32) (e : Fin 640000) : dstW a1 (ix1 e) = Cert.MP.dstWord a1 e := by
  unfold dstW
  refine (shapeCast_apply _ shapeCasts_S1x640000_S640000 (ix1 e) (ix2 (0 : Fin 1) e) (by
    rw [Shape.rowMajor_val_two, Shape.rowMajor_val_one]
    show 0 * 640000 + e.val = e.val
    omega)).trans ?_
  exact extractStridedSlice_apply ![1, 0] a1 slices_S2x640000_S1x640000_1_0 (ix2 (0 : Fin 1) e) (ix2 (1 : Fin 2) e)
    (fun a => match a with
      | ⟨0, _⟩ => by show (1 : ℕ) = 1 + 0; omega
      | ⟨1, _⟩ => by show e.val = 0 + e.val; omega)

/-- The first block of the first layer's weights: rows `0 … 127`. -/
theorem w1a_apply (a3 : FVec Ideal S384x128 .f32) (k h : Fin 128) :
    w1a a3 (ix2 k h) = a3 (ix2 (⟨k.val, by omega⟩ : Fin 384) h) := by
  unfold w1a
  exact extractStridedSlice_apply ![0, 0] a3 slices_S384x128_S128x128_0_0 (ix2 k h) (ix2 (⟨k.val, by omega⟩ : Fin 384) h)
    (fun a => match a with
      | ⟨0, _⟩ => by show k.val = 0 + k.val; omega
      | ⟨1, _⟩ => by show h.val = 0 + h.val; omega)

/-- The middle block: rows `128 … 255`. -/
theorem w1b_apply (a3 : FVec Ideal S384x128 .f32) (k h : Fin 128) :
    w1b a3 (ix2 k h) = a3 (ix2 (⟨128 + k.val, by omega⟩ : Fin 384) h) := by
  unfold w1b
  exact extractStridedSlice_apply ![128, 0] a3 slices_S384x128_S128x128_128_0 (ix2 k h)
    (ix2 (⟨128 + k.val, by omega⟩ : Fin 384) h)
    (fun a => match a with
      | ⟨0, _⟩ => by show 128 + k.val = 128 + k.val; omega
      | ⟨1, _⟩ => by show h.val = 0 + h.val; omega)

/-- The last block: rows `256 … 383`. -/
theorem w1c_apply (a3 : FVec Ideal S384x128 .f32) (k h : Fin 128) :
    w1c a3 (ix2 k h) = a3 (ix2 (⟨256 + k.val, by omega⟩ : Fin 384) h) := by
  unfold w1c
  exact extractStridedSlice_apply ![256, 0] a3 slices_S384x128_S128x128_256_0 (ix2 k h)
    (ix2 (⟨256 + k.val, by omega⟩ : Fin 384) h)
    (fun a => match a with
      | ⟨0, _⟩ => by show 256 + k.val = 256 + k.val; omega
      | ⟨1, _⟩ => by show h.val = 0 + h.val; omega)

/-- A vector of words seen as a one-column matrix reads the vector. -/
theorem col_apply (v : IVec S640000 32) (e : Fin 640000) (q : Fin 1) :
    broadcastInDim S640000x1 ![0] bcast_S640000_S640000x1_0 v (ix2 e q) = v (ix1 e) :=
  broadcastInDim_apply _ bcast_S640000_S640000x1_0 v (ix2 e q) (ix1 e) (fun a => match a with
    | ⟨0, _⟩ => by show e.val = if (640000 : Nat) = 1 then 0 else e.val; rw [if_neg (by decide)])

/-! ## The gather's start words and its bounds test -/

/-- The index word with the extent added where it reads negative. -/
theorem wrapW_apply (s : IVec S640000 32) (e : Fin 640000) : wrapW s (ix1 e) = Cert.MP.wrapWord (s (ix1 e)) := rfl

/-- The gather's start word of edge `e`. -/
theorem startIdx_apply (s : IVec S640000 32) (e : Fin 640000) (q : Fin 1) :
    startIdx s (ix2 e q) = Cert.MP.wrapWord (s (ix1 e)) := by
  unfold startIdx
  exact (col_apply (wrapW s) e q).trans (wrapW_apply s e)

/-- A left fold by `and` from 1 over words that are all 1 is 1. -/
theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a]
    exact foldl_andi_one f hf l

/-- Where every wrapped word reads in `[0, 9999]`, the bounds test says yes at every edge. -/
theorem inBounds_apply (s : IVec S640000 32)
    (hs : ∀ e : Fin 640000, 0 ≤ (Cert.MP.wrapWord (s (ix1 e))).toInt ∧ (Cert.MP.wrapWord (s (ix1 e))).toInt ≤ 9999)
    (e : Fin 640000) : inBounds s (ix1 e) = 1#1 := by
  unfold inBounds
  rw [Host.reduce_eq_foldl]
  refine foldl_andi_one _ (fun i => ?_) _
  obtain ⟨p, q, rfl⟩ : ∃ (p : Fin 640000) (q : Fin 1), i = ix2 p q := ⟨i 0, i 1, eq_ix2 i⟩
  show IntOp.andi (IntOp.cmpi .sge (startIdx s (ix2 p q)) 0#32) (IntOp.cmpi .sle (startIdx s (ix2 p q)) 9999#32) = 1#1
  rw [startIdx_apply, IntOp.andi_eq_one, IntOp.cmpi_sge, IntOp.cmpi_sle]
  have h0 : (0#32 : BitVec 32).toInt = 0 := by decide
  have h1 : (9999#32 : BitVec 32).toInt = 9999 := by decide
  rw [h0, h1]
  exact hs p

/-- The gathered rows: where the bounds test says yes, row `e` is the table's row named by the wrapped word. -/
theorem takeRows_apply (x : FVec Ideal S10000x128 .f32) (s : IVec S640000 32) (e : Fin 640000) (k : Fin 128)
    (hb : inBounds s (ix1 e) = 1#1) :
    takeRows x s (ix2 e k) = x (ix2 (Cert.MP.rowOf (Cert.MP.wrapWord (s (ix1 e)))) k) := by
  unfold takeRows
  rw [select_apply]
  have hm : broadcastInDim S640000x128 ![0] bcast_S640000_S640000x128_0 (inBounds s) (ix2 e k) = inBounds s (ix1 e) :=
    broadcastInDim_apply _ bcast_S640000_S640000x128_0 (inBounds s) (ix2 e k) (ix1 e) (fun a => match a with
      | ⟨0, _⟩ => by show e.val = if (640000 : Nat) = 1 then 0 else e.val; rw [if_neg (by decide)])
  rw [hm, hb, select_one]
  refine (Cert.Lib.RowGS.gather_rows_apply (by decide) gather_S10000x128_S640000x1_S640000x128_1_0_n_n_0_1_1128
    rfl rfl rfl rfl rfl rfl rfl x (startIdx s) e k).trans ?_
  refine congrArg (fun r : Fin 10000 => x (ix2 r k)) (Fin.ext ?_)
  show min (startIdx s (ix2 e 0)).toInt.toNat (10000 - 1) = min (Cert.MP.wrapWord (s (ix1 e))).toInt.toNat 9999
  rw [startIdx_apply]

/-! ## The two scatters -/

/-- The accumulating row scatter as a program states it, read at `(n, c)`, at arbitrary extents: the operand's
    element plus the update rows whose start word reads `n`. -/
theorem scatterAdd_rows_read {N D E w : ℕ} {φ : FTy} (d : ScatterDims ⟨2, ![N, D]⟩ ⟨2, ![E, 1]⟩ ⟨2, ![E, D]⟩)
    (h1 : d.updateWindowDims = [1]) (h2 : d.insertedWindowDims = [0]) (h3 : d.scatterDimsToOperandDims = [0])
    (h4 : d.indexVectorDim = 1)
    (x : FVec Ideal ⟨2, ![N, D]⟩ φ) (idx : IVec ⟨2, ![E, 1]⟩ w) (upd : FVec Ideal ⟨2, ![E, D]⟩ φ)
    (n : Fin N) (c : Fin D) :
    Host.scatterAdd d x idx upd (ix2 n c)
      = (x (ix2 n c) + ∑ e : Fin E, if (idx (ix2 e 0)).toInt = (n.val : ℤ) then upd (ix2 e c) else 0 : EReal) :=
  Cert.Lib.RowGS.scatterAdd_rows_apply d h1 h2 h3 h4 x idx upd n c

/-- The zero word broadcast to a matrix reads the extended real zero. -/
theorem zeros2_apply (n : Fin 10000) (h : Fin 128) :
    broadcastInDim S10000x128 ![] bcast_S_S10000x128 (constant (F := Ideal) S_ .f32 0x00000000#32) (ix2 n h)
      = (0 : EReal) := by
  rw [broadcastInDim_scalar_apply, constant_apply]
  exact Ideal.ofBits_zero_f32

/-- The zero word broadcast to a vector reads the extended real zero. -/
theorem zeros1_apply (n : Fin 10000) :
    broadcastInDim S10000 ![] bcast_S_S10000 (constant (F := Ideal) S_ .f32 0x00000000#32) (ix1 n) = (0 : EReal) := by
  rw [broadcastInDim_scalar_apply, constant_apply]
  exact Ideal.ofBits_zero_f32

/-- The word of the float one broadcast to a vector reads the extended real one. -/
theorem ones1_apply (e : Fin 640000) :
    broadcastInDim S640000 ![] bcast_S_S640000 (constant (F := Ideal) S_ .f32 0x3F800000#32) (ix1 e) = (1 : EReal) := by
  rw [broadcastInDim_scalar_apply, constant_apply]
  exact Ideal.ofBits_one_f32

/-- The received shares: from zero, the rows of `comb` whose target word reads `n`. -/
theorem aggOf_apply (d : IVec S640000 32) (comb : FVec Ideal S640000x128 .f32) (n : Fin 10000) (h : Fin 128) :
    aggOf d comb (ix2 n h)
      = (0 + ∑ e : Fin 640000, if (d (ix1 e)).toInt = (n.val : ℤ) then comb (ix2 e h) else 0 : EReal) := by
  unfold aggOf
  refine (scatterAdd_rows_read scatter_S10000x128_S640000x1_S640000x128_1_0_0_1 rfl rfl rfl rfl
    _ _ comb n h).trans ?_
  rw [zeros2_apply]
  refine congrArg (fun t : EReal => 0 + t) (Finset.sum_congr rfl fun e _ => ?_)
  rw [col_apply]

/-- The number of received edges: from zero, a one per edge whose target word reads `n`. -/
theorem degOf_apply (d : IVec S640000 32) (n : Fin 10000) :
    degOf d (ix2 n (0 : Fin 1))
      = (0 + ∑ e : Fin 640000, if (d (ix1 e)).toInt = (n.val : ℤ) then (1 : EReal) else 0 : EReal) := by
  unfold degOf
  refine (Cert.Lib.Column.shapeCast_a_a1_apply _ shapeCasts_S10000_S10000x1 n 0).trans ?_
  refine (Cert.LibScatterAdd1.scatterAdd_apply 10000 640000 scatter_S10000_S640000x1_S640000_n_0_0_1 rfl rfl rfl rfl
    _ _ _ n).trans ?_
  rw [zeros1_apply]
  refine congrArg (fun t : EReal => 0 + t) (Finset.sum_congr rfl fun e _ => ?_)
  rw [col_apply, ones1_apply]

/-! ## The two launches' results against the sum form -/

section
variable (a0 : FVec Ideal S10000x128 .f32) (a1 : IVec S2x640000 32) (a2 : FVec Ideal S640000x128 .f32)
  (a3 : FVec Ideal S384x128 .f32) (a4 : FVec Ideal S128 .f32)
  (hr : ∀ e : Fin 640000, 0 ≤ (Cert.MP.srcWord a1 e).toInt ∧ (Cert.MP.srcWord a1 e).toInt < 10000)
include hr

/-- Under the range condition the wrapped source words read in `[0, 9999]`. -/
theorem wrapped_src_inRange (e : Fin 640000) :
    0 ≤ (Cert.MP.wrapWord (srcW a1 (ix1 e))).toInt ∧ (Cert.MP.wrapWord (srcW a1 (ix1 e))).toInt ≤ 9999 := by
  rw [srcW_apply]
  exact Cert.MP.wrap_srcWord_inRange a1 e (hr e).1 (hr e).2

/-- The gathered source rows: row `e` is the table's row that edge `e`'s source word names. -/
theorem takeRows_src (e : Fin 640000) (k : Fin 128) :
    takeRows a0 (srcW a1) (ix2 e k) = a0 (ix2 (Cert.MP.srcRow a1 e) k) := by
  rw [takeRows_apply a0 (srcW a1) e k (inBounds_apply (srcW a1) (wrapped_src_inRange a1 hr) e), srcW_apply]
  rfl

/-- The first launch's result at `(e, h)` is the source's and the edge's own share of edge `e`'s message. -/
theorem edgeMix_eq (e : Fin 640000) (h : Fin 128) :
    Cert.MP.edgeMix (takeRows a0 (srcW a1)) a2 (w1a a3) (w1c a3) (ix2 e h)
      = Cert.MP.mixAt a0 (Cert.MP.srcRow a1) a2 a3 e h := by
  rw [Cert.MP.edgeMix_apply]
  unfold Cert.MP.mixAt
  have hA : (∑ k : Fin 128, takeRows a0 (srcW a1) (ix2 e k) * w1a a3 (ix2 k h))
      = ∑ k : Fin 128, a0 (ix2 (Cert.MP.srcRow a1 e) k) * a3 (ix2 (⟨k.val, by omega⟩ : Fin 384) h) :=
    Finset.sum_congr rfl fun k _ => by rw [takeRows_src a0 a1 hr e k, w1a_apply]
  have hC : (∑ k : Fin 128, a2 (ix2 e k) * w1c a3 (ix2 k h))
      = ∑ k : Fin 128, a2 (ix2 e k) * a3 (ix2 (⟨256 + k.val, by omega⟩ : Fin 384) h) :=
    Finset.sum_congr rfl fun k _ => by rw [w1c_apply]
  rw [hA, hC]

/-- The second launch's aggregate at `(n, h)` is the rebuilt aggregate of the sum form. -/
theorem nodeHid_eq (n : Fin 10000) (h : Fin 128) :
    Cert.MP.nodeHid (aggOf (dstW a1) (Cert.MP.edgeMix (takeRows a0 (srcW a1)) a2 (w1a a3) (w1c a3))) a0
        (degOf (dstW a1)) (w1b a3) (asRow a4) n h
      = Cert.MP.hidAt a0 (Cert.MP.srcRow a1) (Cert.MP.dstInt a1) a2 a3 a4 n h := by
  unfold Cert.MP.nodeHid Cert.MP.hidAt Cert.MP.selfAt
  rw [aggOf_apply, degOf_apply, asRow_apply]
  have hA : (∑ e : Fin 640000, if (dstW a1 (ix1 e)).toInt = (n.val : ℤ)
        then Cert.MP.edgeMix (takeRows a0 (srcW a1)) a2 (w1a a3) (w1c a3) (ix2 e h) else 0)
      = ∑ e : Fin 640000, if Cert.MP.dstInt a1 e = (n.val : ℤ)
        then Cert.MP.mixAt a0 (Cert.MP.srcRow a1) a2 a3 e h else 0 :=
    Finset.sum_congr rfl fun e _ => by
      rw [dstW_apply, edgeMix_eq a0 a1 a2 a3 hr e h]
      rfl
  have hD : (∑ e : Fin 640000, if (dstW a1 (ix1 e)).toInt = (n.val : ℤ) then (1 : EReal) else 0)
      = ∑ e : Fin 640000, if Cert.MP.dstInt a1 e = (n.val : ℤ) then (1 : EReal) else 0 :=
    Finset.sum_congr rfl fun e _ => by
      rw [dstW_apply]
      rfl
  have hS : (∑ k : Fin 128, a0 (ix2 n k) * w1b a3 (ix2 k h))
      = ∑ k : Fin 128, a0 (ix2 n k) * a3 (ix2 (⟨128 + k.val, by omega⟩ : Fin 384) h) :=
    Finset.sum_congr rfl fun k _ => by rw [w1b_apply]
  rw [hA, hD, hS]

end

/-- With every source word in `[0, 10000)`, the kernel program's result at `(n, o)` is the output layer of the
    rebuilt aggregate. -/
theorem kernelVal_apply (a0 : FVec Ideal S10000x128 .f32) (a1 : IVec S2x640000 32) (a2 : FVec Ideal S640000x128 .f32)
    (a3 : FVec Ideal S384x128 .f32) (a4 : FVec Ideal S128 .f32) (a5 : FVec Ideal S256x128 .f32)
    (a6 : FVec Ideal S128 .f32)
    (hr : ∀ e : Fin 640000, 0 ≤ (Cert.MP.srcWord a1 e).toInt ∧ (Cert.MP.srcWord a1 e).toInt < 10000)
    (n : Fin 10000) (o : Fin 128) :
    kernelVal a0 a1 a2 a3 a4 a5 a6 (ix2 n o)
      = Cert.MP.outAt a0 a5 a6 (Cert.MP.hidAt a0 (Cert.MP.srcRow a1) (Cert.MP.dstInt a1) a2 a3 a4) n o := by
  unfold kernelVal
  rw [Cert.MP.nodeOut_apply]
  unfold Cert.MP.outAt
  rw [asRow_apply]
  have hh : Cert.MP.nodeHid (aggOf (dstW a1) (Cert.MP.edgeMix (takeRows a0 (srcW a1)) a2 (w1a a3) (w1c a3))) a0
      (degOf (dstW a1)) (w1b a3) (asRow a4)
      = Cert.MP.hidAt a0 (Cert.MP.srcRow a1) (Cert.MP.dstInt a1) a2 a3 a4 :=
    funext fun n => funext fun h => nodeHid_eq a0 a1 a2 a3 a4 hr n h
  rw [hh]

end Cert.KernelIdeal.StagesRead

end
-- ==== Proof.RefRead.lean ====
/-
  The reference program's result read at one element, as sums.
-/
import proofs.«419142_j5557687681588_3_alg».proof.Proof.Gen.ReferenceIdeal.Read
import proofs.«419142_j5557687681588_3_alg».proof.Proof.MPSpec
import proofs.«419142_j5557687681588_3_alg».proof.Proof.EdgeWords
import proofs.«419142_j5557687681588_3_alg».proof.Proof.LibRowGatherScatter
import Idealize.ShloMosaic.Lib.Pipeline.Value
import Idealize.ShloMosaic.Lib.ValueIdx
import Idealize.ShloMosaic.Lib.ValueLayout
import Idealize.ShloMosaic.Lib.Affine
import Idealize.ShloMosaic.PureOps.Ideal.Laws

noncomputable section

namespace Cert.ReferenceIdeal.RefRead

open Cert.ReferenceIdeal Cert.ReferenceIdeal.Gen Cert.ReferenceIdeal.Read
open Idealize.ShloMosaic Idealize.ShloMosaic.TcCoe Idealize.ShloMosaic.ValueIdx
open scoped BigOperators

/-! ## The words of the edge list -/

/-- Row 0 of the edge list, flattened, holds at `e` edge `e`'s source word. -/
theorem v1_apply (a1 : IVec S2x640000 32) (e : Fin 640000) :
    val_main_v1 (F := Ideal) a1 (ix1 e) = Cert.MP.srcWord a1 e := by
  rw [val_main_v1_apply, val_main_v0_apply]
  unfold Cert.MP.srcWord
  refine congrArg a1 (funext fun a => Fin.ext ?_)
  match a with
  | ⟨0, _⟩ => rfl
  | ⟨1, _⟩ => exact Nat.mod_eq_of_lt e.isLt

/-- Row 1 of the edge list, flattened, holds at `e` edge `e`'s target word. -/
theorem v3_apply (a1 : IVec S2x640000 32) (e : Fin 640000) :
    val_main_v3 (F := Ideal) a1 (ix1 e) = Cert.MP.dstWord a1 e := by
  rw [val_main_v3_apply, val_main_v2_apply]
  unfold Cert.MP.dstWord
  refine congrArg a1 (funext fun a => Fin.ext ?_)
  match a with
  | ⟨0, _⟩ => rfl
  | ⟨1, _⟩ => exact Nat.mod_eq_of_lt e.isLt

/-- The source words with the extent added to the negative ones. -/
theorem v8_apply (a1 : IVec S2x640000 32) (e : Fin 640000) :
    val_main_v8 (F := Ideal) a1 (ix1 e) = Cert.MP.wrapWord (Cert.MP.srcWord a1 e) := by
  rw [val_main_v8_apply, val_main_v5_apply, val_main_v7_apply, val_main_v4_apply, val_main_v6_apply,
    val_main_c_apply, val_main_c_0_apply, v1_apply]
  rfl

/-- The target words with the extent added to the negative ones. -/
theorem v15_apply (a1 : IVec S2x640000 32) (e : Fin 640000) :
    val_main_v15 (F := Ideal) a1 (ix1 e) = Cert.MP.wrapWord (Cert.MP.dstWord a1 e) := by
  rw [val_main_v15_apply, val_main_v12_apply, val_main_v14_apply, val_main_v11_apply, val_main_v13_apply,
    val_main_c_1_apply, val_main_c_2_apply, v3_apply]
  rfl

/-- The wrapped source words as a column. -/
theorem v9_apply (a1 : IVec S2x640000 32) (e : Fin 640000) :
    val_main_v9 (F := Ideal) a1 (ix2 e (0 : Fin 1)) = Cert.MP.wrapWord (Cert.MP.srcWord a1 e) := by
  rw [val_main_v9_apply]
  exact v8_apply a1 e

/-- The wrapped target words as a column. -/
theorem v16_apply (a1 : IVec S2x640000 32) (e : Fin 640000) :
    val_main_v16 (F := Ideal) a1 (ix2 e (0 : Fin 1)) = Cert.MP.wrapWord (Cert.MP.dstWord a1 e) := by
  rw [val_main_v16_apply]
  exact v15_apply a1 e

/-- The target words, as they are, as a column. -/
theorem v24_apply (a1 : IVec S2x640000 32) (e : Fin 640000) :
    val_main_v24 (F := Ideal) a1 (ix2 e (0 : Fin 1)) = Cert.MP.dstWord a1 e := by
  rw [val_main_v24_apply]
  exact v3_apply a1 e

/-! ## The gathered rows -/

/-- The gather at the wrapped source words: row `e` is the node table's row that edge `e`'s source word names. -/
theorem v10_apply (a0 : FVec Ideal S10000x128 .f32) (a1 : IVec S2x640000 32) (e : Fin 640000) (c : Fin 128) :
    val_main_v10 (F := Ideal) a0 a1 (ix2 e c) = a0 (ix2 (Cert.MP.srcRow a1 e) c) := by
  unfold val_main_v10
  refine (Cert.Lib.RowGS.gather_rows_apply (by decide) gather_S10000x128_S640000x1_S640000x128_1_0_n_n_0_1_1128
    rfl rfl rfl rfl rfl rfl rfl a0 (val_main_v9 (F := Ideal) a1) e c).trans ?_
  exact congrArg (fun w => a0 (ix2 (Cert.MP.rowOf w) c)) (v9_apply a1 e)

/-- The gather at the wrapped target words: row `e` is the node table's row that edge `e`'s target word names. -/
theorem v17_apply (a0 : FVec Ideal S10000x128 .f32) (a1 : IVec S2x640000 32) (e : Fin 640000) (c : Fin 128) :
    val_main_v17 (F := Ideal) a0 a1 (ix2 e c) = a0 (ix2 (Cert.MP.dstRow a1 e) c) := by
  unfold val_main_v17
  refine (Cert.Lib.RowGS.gather_rows_apply (by decide) gather_S10000x128_S640000x1_S640000x128_1_0_n_n_0_1_1128
    rfl rfl rfl rfl rfl rfl rfl a0 (val_main_v16 (F := Ideal) a1) e c).trans ?_
  exact congrArg (fun w => a0 (ix2 (Cert.MP.rowOf w) c)) (v16_apply a1 e)

/-! ## The message layer -/

/-- The three blocks side by side are the message layer's input. -/
theorem v18_apply (a0 : FVec Ideal S10000x128 .f32) (a1 : IVec S2x640000 32) (a2 : FVec Ideal S640000x128 .f32)
    (e : Fin 640000) (k : Fin 384) :
    val_main_v18 (F := Ideal) a0 a1 a2 (ix2 e k)
      = Cert.MP.inpAt a0 (Cert.MP.srcRow a1) (Cert.MP.dstRow a1) a2 e k := by
  unfold val_main_v18 Cert.MP.inpAt
  by_cases h1 : k.val < 128
  · rw [dif_pos h1]
    refine (concatenate_apply_piece 1 _ _ (ix2 e k) 0 (by simp) S640000x128 (val_main_v10 (F := Ideal) a0 a1) rfl rfl
      0 rfl (ix2 e ⟨k.val, h1⟩) (fun b hb => ?_) ?_).trans (v10_apply a0 a1 e ⟨k.val, h1⟩)
    · match b with
      | ⟨0, _⟩ => rfl
      | ⟨1, _⟩ => exact absurd rfl hb
    · exact Nat.zero_add _
  · rw [dif_neg h1]
    by_cases h2 : k.val < 256
    · rw [dif_pos h2]
      refine (concatenate_apply_piece 1 _ _ (ix2 e k) 1 (by simp) S640000x128 (val_main_v17 (F := Ideal) a0 a1) rfl rfl
        128 rfl (ix2 e ⟨k.val - 128, by omega⟩) (fun b hb => ?_) ?_).trans (v17_apply a0 a1 e ⟨k.val - 128, by omega⟩)
      · match b with
        | ⟨0, _⟩ => rfl
        | ⟨1, _⟩ => exact absurd rfl hb
      · show 128 + (k.val - 128) = k.val
        omega
    · rw [dif_neg h2]
      refine concatenate_apply_piece 1 _ _ (ix2 e k) 2 (by simp) S640000x128 a2 rfl rfl
        256 rfl (ix2 e ⟨k.val - 256, by omega⟩) (fun b hb => ?_) ?_
      · match b with
        | ⟨0, _⟩ => rfl
        | ⟨1, _⟩ => exact absurd rfl hb
      · show 256 + (k.val - 256) = k.val
        omega

/-- The linear layer on the concatenated input, with its bias: edge `e`'s message. -/
theorem v22_apply (a0 : FVec Ideal S10000x128 .f32) (a1 : IVec S2x640000 32) (a2 : FVec Ideal S640000x128 .f32)
    (a3 : FVec Ideal S384x128 .f32) (a4 : FVec Ideal S128 .f32) (e : Fin 640000) (h : Fin 128) :
    val_main_v22 (F := Ideal) a0 a1 a2 a3 a4 (ix2 e h)
      = Cert.MP.msgAt a0 (Cert.MP.srcRow a1) (Cert.MP.dstRow a1) a2 a3 a4 e h := by
  rw [val_main_v22_apply, val_main_v19_apply, val_main_v21_apply, val_main_v20_apply]
  unfold Cert.MP.msgAt
  have hl : ∀ k : Fin 384, lidx_main_v19 (ix2 e h) k = ix2 e k := fun k =>
    funext fun a => Fin.ext (by match a with | ⟨0, _⟩ => rfl | ⟨1, _⟩ => rfl)
  have hr : ∀ k : Fin 384, ridx_main_v19 (ix2 e h) k = ix2 k h := fun k =>
    funext fun a => Fin.ext (by match a with | ⟨0, _⟩ => rfl | ⟨1, _⟩ => rfl)
  have hb : idx_main_v20 (idx_main_v21 (ix2 e h)) = ix1 h :=
    funext fun a => Fin.ext (by match a with | ⟨0, _⟩ => rfl)
  simp only [hl, hr, hb, v18_apply]
  rfl

/-! ## The aggregation -/

/-- The accumulating scatter of the program, at whole rows, read at `(n, h)`: the operand's element plus the update
    rows whose index word reads `n`. -/
theorem scatter_rows_apply (x : FVec Ideal S10000x128 .f32) (idx : IVec S640000x1 32)
    (upd : FVec Ideal S640000x128 .f32) (n : Fin 10000) (h : Fin 128) :
    Host.scatterAdd (F := Ideal) scatter_S10000x128_S640000x1_S640000x128_1_0_0_1 x idx upd (ix2 n h)
      = x (ix2 n h) + ∑ e : Fin 640000, if (idx (ix2 e 0)).toInt = (n.val : ℤ) then upd (ix2 e h) else 0 :=
  Cert.Lib.RowGS.scatterAdd_rows_apply scatter_S10000x128_S640000x1_S640000x128_1_0_0_1 rfl rfl rfl rfl x idx upd n h

/-- The scatter that adds the messages into the nodes, from zero: node `n` receives the messages of the edges whose
    target word reads `n`. -/
theorem v25_apply (a0 : FVec Ideal S10000x128 .f32) (a1 : IVec S2x640000 32) (a2 : FVec Ideal S640000x128 .f32)
    (a3 : FVec Ideal S384x128 .f32) (a4 : FVec Ideal S128 .f32) (n : Fin 10000) (h : Fin 128) :
    val_main_v25 (F := Ideal) a0 a1 a2 a3 a4 (ix2 n h)
      = Cert.MP.aggAt a0 (Cert.MP.srcRow a1) (Cert.MP.dstRow a1) (Cert.MP.dstInt a1) a2 a3 a4 n h := by
  refine (scatter_rows_apply (val_main_v23 (F := Ideal)) (val_main_v24 (F := Ideal) a1)
    (val_main_v22 (F := Ideal) a0 a1 a2 a3 a4) n h).trans ?_
  unfold Cert.MP.aggAt
  rw [val_main_v23_apply, val_main_cst_apply]
  refine congrArg₂ (· + ·) Ideal.ofBits_zero_f32 (Finset.sum_congr rfl fun e _ => ?_)
  rw [v24_apply, v22_apply]
  rfl

/-! ## The output layer -/

/-- The aggregate beside the node table is the output layer's input. -/
theorem v26_apply (a0 : FVec Ideal S10000x128 .f32) (a1 : IVec S2x640000 32) (a2 : FVec Ideal S640000x128 .f32)
    (a3 : FVec Ideal S384x128 .f32) (a4 : FVec Ideal S128 .f32) (n : Fin 10000) (k : Fin 256) :
    val_main_v26 (F := Ideal) a0 a1 a2 a3 a4 (ix2 n k)
      = Cert.MP.catAt a0
          (Cert.MP.aggAt a0 (Cert.MP.srcRow a1) (Cert.MP.dstRow a1) (Cert.MP.dstInt a1) a2 a3 a4) n k := by
  unfold val_main_v26 Cert.MP.catAt
  by_cases h1 : k.val < 128
  · rw [dif_pos h1]
    refine (concatenate_pair_apply_left (t := S10000x256) (s₁ := S10000x128) (s₂ := S10000x128) 1
      (val_main_v25 (F := Ideal) a0 a1 a2 a3 a4) a0 concatenates_S10000x128_S10000x128_S10000x256_d1 (ix2 n k) rfl
      (ix2 n (⟨k.val, h1⟩ : Fin 128)) (fun b => ?_)).trans (v25_apply a0 a1 a2 a3 a4 n ⟨k.val, h1⟩)
    match b with
    | ⟨0, _⟩ => rfl
    | ⟨1, _⟩ => rfl
  · rw [dif_neg h1]
    refine concatenate_pair_apply_right (t := S10000x256) (s₁ := S10000x128) (s₂ := S10000x128) 1
      (val_main_v25 (F := Ideal) a0 a1 a2 a3 a4) a0 concatenates_S10000x128_S10000x128_S10000x256_d1 (ix2 n k) rfl rfl
      (ix2 n (⟨k.val - 128, by omega⟩ : Fin 128)) (fun b hb => ?_) ?_
    · match b with
      | ⟨0, _⟩ => rfl
      | ⟨1, _⟩ => exact absurd rfl hb
    · show k.val - 128 + 128 = k.val
      omega

/-- The reference program's result at `(n, o)` is the output layer of the aggregated messages. -/
theorem ref_apply (a0 : FVec Ideal S10000x128 .f32) (a1 : IVec S2x640000 32) (a2 : FVec Ideal S640000x128 .f32)
    (a3 : FVec Ideal S384x128 .f32) (a4 : FVec Ideal S128 .f32) (a5 : FVec Ideal S256x128 .f32)
    (a6 : FVec Ideal S128 .f32) (n : Fin 10000) (o : Fin 128) :
    val_main_v30 (F := Ideal) a0 a1 a2 a3 a4 a5 a6 (ix2 n o)
      = Cert.MP.outAt a0 a5 a6
          (Cert.MP.aggAt a0 (Cert.MP.srcRow a1) (Cert.MP.dstRow a1) (Cert.MP.dstInt a1) a2 a3 a4) n o := by
  rw [val_main_v30_apply, val_main_v27_apply, val_main_v29_apply, val_main_v28_apply]
  unfold Cert.MP.outAt
  have hl : ∀ k : Fin 256, lidx_main_v27 (ix2 n o) k = ix2 n k := fun k =>
    funext fun a => Fin.ext (by match a with | ⟨0, _⟩ => rfl | ⟨1, _⟩ => rfl)
  have hr : ∀ k : Fin 256, ridx_main_v27 (ix2 n o) k = ix2 k o := fun k =>
    funext fun a => Fin.ext (by match a with | ⟨0, _⟩ => rfl | ⟨1, _⟩ => rfl)
  have hb : idx_main_v28 (idx_main_v29 (ix2 n o)) = ix1 o :=
    funext fun a => Fin.ext (by match a with | ⟨0, _⟩ => rfl)
  simp only [hl, hr, hb, v26_apply]
  rfl

end Cert.ReferenceIdeal.RefRead

end
-- ==== Proof.PreRange.lean ====
/-
  What the precondition says of the source words.

  The precondition is a conjunction (a chain of one-bit `and`) whose last conjunct is a `jnp.all` over the 640000
  source words of `0 ≤ word` and `word < 10000`, both read signed; the source words are row 0 of the edge list, sliced
  off and reshaped to a vector. Where the whole is the one-bit 1, the last conjunct is 1, so every element under the
  `all` is 1, so both comparisons hold of every source word.
-/
import proofs.«419142_j5557687681588_3_alg».proof.Pre_finite_inputs
import proofs.«419142_j5557687681588_3_alg».proof.Proof.Gen.Pre_finite_inputs
import proofs.«419142_j5557687681588_3_alg».proof.Proof.EdgeWords
import Idealize.ShloMosaic.Lib.Pipeline.Value
import Idealize.ShloMosaic.Lib.ValueIdx
import Idealize.ShloMosaic.Lib.ReduceAll
import Idealize.ShloMosaic.Lib.Affine
import Idealize.ShloMosaic.Lib.IdealHost
import Idealize.ShloMosaic.PureOps.Ideal

noncomputable section

namespace Cert.Pre_finite_inputs.Range

open Cert.Pre_finite_inputs Cert.Pre_finite_inputs.Gen
open Idealize.ShloMosaic Idealize.ShloMosaic.ValueIdx

/-- The result of a reduction over every axis has one index. -/
instance : Subsingleton S_.Idx := ⟨fun a b => funext fun d => d.elim0⟩

/-- Row 0 of the edge list, reshaped to a vector, read at `e`: edge `e`'s source word. -/
theorem row0_apply (a1 : IVec S2x640000 32) (e : Fin 640000) :
    shapeCast S640000 (extractStridedSlice S1x640000 ![0, 0] a1 slices_S2x640000_S1x640000_0_0)
        shapeCasts_S1x640000_S640000 (ix1 e) = Cert.MP.srcWord a1 e := by
  rw [shapeCast_apply _ shapeCasts_S1x640000_S640000 (ix1 e) (ix2 (0 : Fin 1) e) (by
    rw [Shape.rowMajor_val_two, Shape.rowMajor_val_one]
    show 0 * 640000 + e.val = e.val
    omega)]
  exact extractStridedSlice_apply ![0, 0] a1 slices_S2x640000_S1x640000_0_0 (ix2 (0 : Fin 1) e) (ix2 (0 : Fin 2) e)
    (fun a => match a with
      | ⟨0, _⟩ => by show (0 : ℕ) = 0 + 0; rfl
      | ⟨1, _⟩ => by show e.val = 0 + e.val; omega)

/-- Where the precondition holds, every source word reads in `[0, 10000)`. -/
theorem src_inRange (a0 : FVec Ideal S10000x128 .f32) (a1 : IVec S2x640000 32) (a2 : FVec Ideal S640000x128 .f32)
    (a3 : FVec Ideal S384x128 .f32) (a4 : FVec Ideal S128 .f32) (a5 : FVec Ideal S256x128 .f32)
    (a6 : FVec Ideal S128 .f32)
    (h : Cert.Pre_finite_inputs.fn (F := Ideal) a0 a1 a2 a3 a4 a5 a6 = (fun _ => 1#1)) (e : Fin 640000) :
    0 ≤ (Cert.MP.srcWord a1 e).toInt ∧ (Cert.MP.srcWord a1 e).toInt < 10000 := by
  have h0 := congrFun h ix0
  dsimp only [fn, fn_part1, fn_part2] at h0
  have h1 : IntOp.andi _ (Host.reduce IntOp.andi _ _ reducesTo_S640000_S_d0 h_S_ ix0) = 1#1 := h0
  have h2 := Host.reduce_andi_all _ _ _ _ _ (IntOp.andi_eq_one.mp h1).2 (ix1 e)
  have h3 : IntOp.andi (IntOp.cmpi .sge _ _) (IntOp.cmpi .slt _ _) = 1#1 := h2
  obtain ⟨hge, hlt⟩ := IntOp.andi_eq_one.mp h3
  have hge' := IntOp.cmpi_sge.mp hge
  have hlt' := IntOp.cmpi_slt.mp hlt
  rw [row0_apply] at hge' hlt'
  rw [broadcastInDim_scalar_apply] at hge' hlt'
  have z0 : (constantI S_ 32 0#32 ix0 : BitVec 32).toInt = 0 := by decide
  have z1 : (constantI S_ 32 10000#32 ix0 : BitVec 32).toInt = 10000 := by decide
  rw [z0] at hge'
  rw [z1] at hlt'
  exact ⟨hge', hlt'⟩

end Cert.Pre_finite_inputs.Range

end
-- ==== Proof.Bridge.lean ====
/-
  The two programs compute one function of their arguments, where the precondition holds.

  At `(n, o)` the reference's result is the output layer of the aggregated messages; the kernel program's is the output
  layer of the aggregate rebuilt from the received shares and the count of received edges, PROVIDED every source word
  reads in `[0, 10000)`: outside that range the kernel program's row gather fills the row with the NaN word where the
  reference's indexing clamps, and the two differ. The precondition says exactly that of the source words; of the target
  words nothing is needed, since both programs add an edge's message into the node its target word reads and drop it
  when that is no node, and an edge that is received by node `n` has target row `n`. The two aggregates are then equal
  by the law of sums in the specification, and the output layers are one function of the aggregate.
-/
import proofs.«419142_j5557687681588_3_alg».proof.Proof.KernelRead
import proofs.«419142_j5557687681588_3_alg».proof.Proof.RefRead
import proofs.«419142_j5557687681588_3_alg».proof.Proof.PreRange
import proofs.«419142_j5557687681588_3_alg».proof.Proof.MPSpec
import proofs.«419142_j5557687681588_3_alg».proof.Proof.EdgeWords
import Idealize.ShloMosaic.Lib.ValueIdx

noncomputable section

namespace Cert.Bridge

open Idealize.ShloMosaic Idealize.ShloMosaic.ValueIdx Cert.MP

/-- The reference's result array is the kernel program's, as functions of the seven arguments, where the
    precondition holds of them. -/
theorem result_eq (a0 : Mat 10000 128) (a1 : IVec ⟨2, ![2, 640000]⟩ 32) (a2 : Mat 640000 128) (a3 : Mat 384 128)
    (a4 : Row 128) (a5 : Mat 256 128) (a6 : Row 128)
    (h : Cert.Pre_finite_inputs.fn (F := Ideal) a0 a1 a2 a3 a4 a5 a6 = (fun _ => 1#1)) :
    Cert.ReferenceIdeal.Read.val_main_v30 (F := Ideal) a0 a1 a2 a3 a4 a5 a6
      = Cert.KernelIdeal.Stages.kernelVal a0 a1 a2 a3 a4 a5 a6 := by
  funext i
  obtain ⟨n, o, rfl⟩ : ∃ (n : Fin 10000) (o : Fin 128), i = ix2 n o := ⟨i 0, i 1, eq_ix2 i⟩
  rw [Cert.ReferenceIdeal.RefRead.ref_apply a0 a1 a2 a3 a4 a5 a6 n o,
    Cert.KernelIdeal.StagesRead.kernelVal_apply a0 a1 a2 a3 a4 a5 a6
      (Cert.Pre_finite_inputs.Range.src_inRange a0 a1 a2 a3 a4 a5 a6 h) n o]
  refine congrArg (fun hid => outAt a0 a5 a6 hid n o) ?_
  funext n' h'
  exact (hid_eq_agg a0 (srcRow a1) (dstRow a1) (dstInt a1) a2 a3 a4
    (fun e k he => dstRow_of_dstInt a1 e k he) n' h').symm

end Cert.Bridge

end
-- ==== Proof.lean ====
/-
  One round of message passing on a graph of 10000 nodes and 640000 edges: the kernel program against its reference,
  over the extended reals.

  The reference gathers, per edge, the source's and the target's rows of the node table, concatenates them with the
  edge's features, applies a linear layer, adds each edge's message into its target node, concatenates the sums with
  the node table and applies a second linear layer. The kernel program gathers only the source's rows; its first launch
  (100 tiles of 6400 edges) contracts them and the edge features against the first and third 128-row blocks of the
  first layer's weights; the host adds these per-edge shares into the target nodes and counts the edges each node
  receives; its second launch (2 tiles of 5000 nodes) adds, per node, that count times the node's own row contracted
  against the middle block plus the bias, and applies the second layer. The two agree because a 384-term contraction
  is three 128-term ones, and on the edges a node receives the middle one and the bias are the same for every edge, so
  adding them once per edge is multiplying them by the count (`Proof/MPSpec.lean`; no finiteness is used).

  The statement carries, beside the finiteness of the float inputs, that every source word of the edge list reads in
  `[0, 10000)`: outside it the reference's indexing runs off the node table (and is clamped) while the kernel
  program's gather fills the row with the NaN word, and the results differ; the target words need no such condition
  (`Proof/Bridge.lean`).

  The three frames: the two kernel programs' are the generated frame certificates; the reference's is its generated run
  with the result dropped. The idealization rewrote nothing, so `preserves` is trivial. For the value, the kernel
  program's run is taken with its result buffer named at the last boundary of the fold through @main
  (`Proof/KernelRun.lean`), that buffer is read back to one function of the seven arguments (`Proof/HostFold.lean` over
  `Proof/RegionEdge.lean` and `Proof/RegionNode.lean`), and the reference's generated run ends at the same function.
-/
import proofs.«419142_j5557687681588_3_alg».proof.Defs
import proofs.«419142_j5557687681588_3_alg».proof.Proof.Gen.Kernel
import proofs.«419142_j5557687681588_3_alg».proof.Proof.Gen.Kernel.Skeleton
import proofs.«419142_j5557687681588_3_alg».proof.Proof.Gen.Kernel.Launch
import proofs.«419142_j5557687681588_3_alg».proof.Proof.Gen.Kernel.Points
import proofs.«419142_j5557687681588_3_alg».proof.Proof.Gen.Kernel.Frame
import proofs.«419142_j5557687681588_3_alg».proof.Proof.Gen.KernelIdeal
import proofs.«419142_j5557687681588_3_alg».proof.Proof.Gen.KernelIdeal.Skeleton
import proofs.«419142_j5557687681588_3_alg».proof.Proof.Gen.KernelIdeal.Launch
import proofs.«419142_j5557687681588_3_alg».proof.Proof.Gen.KernelIdeal.Points
import proofs.«419142_j5557687681588_3_alg».proof.Proof.Gen.KernelIdeal.Frame
import proofs.«419142_j5557687681588_3_alg».proof.Proof.Gen.ReferenceIdeal
import proofs.«419142_j5557687681588_3_alg».proof.Proof.Gen.Pre_finite_inputs
import proofs.«419142_j5557687681588_3_alg».proof.Proof.Gen.ReferenceIdeal.Run
import proofs.«419142_j5557687681588_3_alg».proof.Proof.Gen.ReferenceIdeal.Read
import proofs.«419142_j5557687681588_3_alg».proof.Proof.KernelRun
import proofs.«419142_j5557687681588_3_alg».proof.Proof.HostFold
import proofs.«419142_j5557687681588_3_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_kernel : Cert.frame_Kernel := fun m ρ _ => Cert.Kernel.Gen.frame m ρ

/-- The idealized kernel program runs and keeps its arguments. -/
theorem frame_kernelIdeal : Cert.frame_KernelIdeal := fun m ρ _ => Cert.KernelIdeal.Gen.frame m ρ

/-- The reference runs and keeps its arguments: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the kernel program's function of them. -/
theorem algebraic : Cert.algebraic_KernelIdeal_ReferenceIdeal := by
  intro m ρ m' ρ' hpre hagree
  refine ⟨fun c => Cert.KernelIdeal.Stages.kernelVal
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Fold.value m ρ c), (h c).2⟩)
      (Cert.KernelIdeal.RunValue.run (F := Ideal) m ρ)
  · refine (θ_run Cert.ReferenceIdeal.defs _ _).mono (fun r h c => ⟨(h c).1.trans ?_, (h c).2⟩)
      (Cert.ReferenceIdeal.Value.run (F := Ideal) m' ρ')
    rw [(hagree c).1, (hagree c).2.1, (hagree c).2.2.1, (hagree c).2.2.2.1, (hagree c).2.2.2.2.1,
      (hagree c).2.2.2.2.2.1, (hagree c).2.2.2.2.2.2]
    exact (Cert.ReferenceIdeal.Read.val_main_v30_eq _ _ _ _ _ _ _).trans (Cert.Bridge.result_eq _ _ _ _ _ _ _ (hpre c))

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
